-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x240000 : Shape := ⟨2, ![16, 240000]⟩
abbrev S800 : Shape := ⟨1, ![800]⟩
abbrev S800x800 : Shape := ⟨2, ![800, 800]⟩
abbrev S_ : Shape := ⟨0, ![]⟩

class Facts : Prop where
  bcast_S_S16x240000 : S_.BroadcastsInDim S16x240000 (![] : Fin 0 → Fin S16x240000.rank)
  reducesTo_S16x240000_S_d0_1 : S16x240000.ReducesTo [0, 1] S_
  h_S_ : 0 < S_.numel
  bcast_S_S800 : S_.BroadcastsInDim S800 (![] : Fin 0 → Fin S800.rank)
  reducesTo_S800_S_d0 : S800.ReducesTo [0] S_
  bcast_S_S800x800 : S_.BroadcastsInDim S800x800 (![] : Fin 0 → Fin S800x800.rank)
  reducesTo_S800x800_S_d0_1 : S800x800.ReducesTo [0, 1] S_

variable [Facts]

def fn_part1 {F : FTy → Type} [FloatOps F] (main_v13 : IVec S_ 1) (main_v16 : IVec S800x800 1) : IVec S_ 1 :=
  let main_c_5 : IVec S_ 1 := constantI S_ 1 1#1
  let main_v17 : IVec S_ 1 := (fun x v => Host.reduce IntOp.andi x v reducesTo_S800x800_S_d0_1 h_S_) main_v16 main_c_5
  let main_v18 : IVec S_ 1 := andi main_v13 main_v17
  main_v18

def fn {F : FTy → Type} [FloatOps F] (main_arg0 : FVec F S16x240000 .f32) (main_arg1 : FVec F S800 .f32) (main_arg2 : FVec F S800x800 .f32) (main_arg3 : FVec F S800x800 .f32) : IVec S_ 1 :=
  let main_v0 : FVec F S16x240000 .f32 := Host.absf main_arg0
  let main_cst : FVec F S_ .f32 := constant S_ .f32 0x7F800000#32
  let main_v1 : FVec F S16x240000 .f32 := broadcastInDim S16x240000 ![] bcast_S_S16x240000 main_cst
  let main_v2 : IVec S16x240000 1 := cmpf .olt main_v0 main_v1
  let main_c : IVec S_ 1 := constantI S_ 1 1#1
  let main_v3 : IVec S_ 1 := (fun x v => Host.reduce IntOp.andi x v reducesTo_S16x240000_S_d0_1 h_S_) main_v2 main_c
  let main_v4 : FVec F S800 .f32 := Host.absf main_arg1
  let main_cst_0 : FVec F S_ .f32 := constant S_ .f32 0x7F800000#32
  let main_v5 : FVec F S800 .f32 := broadcastInDim S800 ![] bcast_S_S800 main_cst_0
  let main_v6 : IVec S800 1 := cmpf .olt main_v4 main_v5
  let main_c_1 : IVec S_ 1 := constantI S_ 1 1#1
  let main_v7 : IVec S_ 1 := (fun x v => Host.reduce IntOp.andi x v reducesTo_S800_S_d0 h_S_) main_v6 main_c_1
  let main_v8 : IVec S_ 1 := andi main_v3 main_v7
  let main_v9 : FVec F S800x800 .f32 := Host.absf main_arg2
  let main_cst_2 : FVec F S_ .f32 := constant S_ .f32 0x7F800000#32
  let main_v10 : FVec F S800x800 .f32 := broadcastInDim S800x800 ![] bcast_S_S800x800 main_cst_2
  let main_v11 : IVec S800x800 1 := cmpf .olt main_v9 main_v10
  let main_c_3 : IVec S_ 1 := constantI S_ 1 1#1
  let main_v12 : IVec S_ 1 := (fun x v => Host.reduce IntOp.andi x v reducesTo_S800x800_S_d0_1 h_S_) main_v11 main_c_3
  let main_v13 : IVec S_ 1 := andi main_v8 main_v12
  let main_v14 : FVec F S800x800 .f32 := Host.absf main_arg3
  let main_cst_4 : FVec F S_ .f32 := constant S_ .f32 0x7F800000#32
  let main_v15 : FVec F S800x800 .f32 := broadcastInDim S800x800 ![] bcast_S_S800x800 main_cst_4
  let main_v16 : IVec S800x800 1 := cmpf .olt main_v14 main_v15
  fn_part1 (F := F) main_v13 main_v16
-- ==== Kernel.lean ====
abbrev S16x240000 : Shape := ⟨2, ![16, 240000]⟩
abbrev S800 : Shape := ⟨1, ![800]⟩
abbrev S800x800 : Shape := ⟨2, ![800, 800]⟩
abbrev S16x1200x200 : Shape := ⟨3, ![16, 1200, 200]⟩
abbrev S16x1197x200 : Shape := ⟨3, ![16, 1197, 200]⟩
abbrev S16x1197x800 : Shape := ⟨3, ![16, 1197, 800]⟩
abbrev S1x1x800 : Shape := ⟨3, ![1, 1, 800]⟩
abbrev S19152x800 : Shape := ⟨2, ![19152, 800]⟩
abbrev S512x800 : Shape := ⟨2, ![512, 800]⟩
abbrev S800x512 : Shape := ⟨2, ![800, 512]⟩
abbrev S19152x512 : Shape := ⟨2, ![19152, 512]⟩
abbrev S2128x800 : Shape := ⟨2, ![2128, 800]⟩
abbrev S2128x512 : Shape := ⟨2, ![2128, 512]⟩
abbrev S19152x401 : Shape := ⟨2, ![19152, 401]⟩
abbrev S16x1197x401 : Shape := ⟨3, ![16, 1197, 401]⟩
abbrev S16x1197x401x1 : Shape := ⟨4, ![16, 1197, 401, 1]⟩
abbrev S16x1197x401x2 : Shape := ⟨4, ![16, 1197, 401, 2]⟩

abbrev nBuf : Space → Nat
  | .hbm => 30
  | .vmem => 8
  | .smem => 0
  | _ => 0

abbrev bufTy : (tb : Table) → Fin (tcTables nBuf tb) → BufTy
  | .hbm, ⟨0, _⟩ => ⟨S16x240000, .f32⟩
  | .hbm, ⟨1, _⟩ => ⟨S800, .f32⟩
  | .hbm, ⟨2, _⟩ => ⟨S800x800, .f32⟩
  | .hbm, ⟨3, _⟩ => ⟨S800x800, .f32⟩
  | .hbm, ⟨4, _⟩ => ⟨S16x1200x200, .f32⟩
  | .hbm, ⟨5, _⟩ => ⟨S16x1197x200, .f32⟩
  | .hbm, ⟨6, _⟩ => ⟨S16x1197x200, .f32⟩
  | .hbm, ⟨7, _⟩ => ⟨S16x1197x200, .f32⟩
  | .hbm, ⟨8, _⟩ => ⟨S16x1197x200, .f32⟩
  | .hbm, ⟨9, _⟩ => ⟨S16x1197x800, .f32⟩
  | .hbm, ⟨10, _⟩ => ⟨S1x1x800, .f32⟩
  | .hbm, ⟨11, _⟩ => ⟨S16x1197x800, .f32⟩
  | .hbm, ⟨12, _⟩ => ⟨S16x1197x800, .f32⟩
  | .hbm, ⟨13, _⟩ => ⟨S19152x800, .f32⟩
  | .hbm, ⟨14, _⟩ => ⟨S19152x800, .bf16⟩
  | .hbm, ⟨15, _⟩ => ⟨S512x800, .f32⟩
  | .hbm, ⟨16, _⟩ => ⟨S800x512, .f32⟩
  | .hbm, ⟨17, _⟩ => ⟨S800x512, .bf16⟩
  | .hbm, ⟨18, _⟩ => ⟨S512x800, .f32⟩
  | .hbm, ⟨19, _⟩ => ⟨S800x512, .f32⟩
  | .hbm, ⟨20, _⟩ => ⟨S800x512, .bf16⟩
  | .hbm, ⟨21, _⟩ => ⟨S19152x512, .f32⟩
  | .hbm, ⟨22, _⟩ => ⟨S19152x512, .f32⟩
  | .hbm, ⟨23, _⟩ => ⟨S19152x401, .f32⟩
  | .hbm, ⟨24, _⟩ => ⟨S16x1197x401, .f32⟩
  | .hbm, ⟨25, _⟩ => ⟨S19152x401, .f32⟩
  | .hbm, ⟨26, _⟩ => ⟨S16x1197x401, .f32⟩
  | .hbm, ⟨27, _⟩ => ⟨S16x1197x401x1, .f32⟩
  | .hbm, ⟨28, _⟩ => ⟨S16x1197x401x1, .f32⟩
  | .hbm, ⟨29, _⟩ => ⟨S16x1197x401x2, .f32⟩
  | .local _ .vmem, ⟨0, _⟩ => ⟨S2128x800, .bf16⟩
  | .local _ .vmem, ⟨1, _⟩ => ⟨S2128x800, .bf16⟩
  | .local _ .vmem, ⟨2, _⟩ => ⟨S800x512, .bf16⟩
  | .local _ .vmem, ⟨3, _⟩ => ⟨S800x512, .bf16⟩
  | .local _ .vmem, ⟨4, _⟩ => ⟨S2128x512, .f32⟩
  | .local _ .vmem, ⟨5, _⟩ => ⟨S2128x512, .f32⟩
  | .local _ .vmem, ⟨6, _⟩ => ⟨S2128x512, .f32⟩
  | .local _ .vmem, ⟨7, _⟩ => ⟨S2128x512, .f32⟩
  | _, _ => ⟨S16x240000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2128x800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S800x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S800x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x240000_S16x1200x200 : S16x240000.ShapeCasts S16x1200x200
  slices_S16x1200x200_S16x1197x200_0_0_0 : S16x1200x200.Slices ![0, 0, 0] S16x1197x200
  slices_S16x1200x200_S16x1197x200_0_1_0 : S16x1200x200.Slices ![0, 1, 0] S16x1197x200
  slices_S16x1200x200_S16x1197x200_0_2_0 : S16x1200x200.Slices ![0, 2, 0] S16x1197x200
  slices_S16x1200x200_S16x1197x200_0_3_0 : S16x1200x200.Slices ![0, 3, 0] S16x1197x200
  concatenates_S16x1197x200_S16x1197x200_S16x1197x200_S16x1197x200_S16x1197x800_d2 : Shape.Concatenates [S16x1197x200, S16x1197x200, S16x1197x200, S16x1197x200] S16x1197x800 2
  bcast_S800_S1x1x800_2 : S800.BroadcastsInDim S1x1x800 (![2] : Fin 1 → Fin S1x1x800.rank)
  bcast_S1x1x800_S16x1197x800_0_1_2 : S1x1x800.BroadcastsInDim S16x1197x800 (![0, 1, 2] : Fin 3 → Fin S16x1197x800.rank)
  shapeCasts_S16x1197x800_S19152x800 : S16x1197x800.ShapeCasts S19152x800
  bitsLt_bf16_f32 : FTy.bits .bf16 < FTy.bits .f32
  slices_S800x800_S512x800_0_0 : S800x800.Slices ![0, 0] S512x800
  transposes_S512x800_S800x512_1_0 : S512x800.Transposes [1, 0] S800x512
  inb_S2128x800_S2128x800_0_0 : ∀ a, (![0, 0] : Fin 2 → Nat) a + S2128x800.size a ≤ S2128x800.size a
  h_S2128x800 : 0 < S2128x800.numel
  shapeCasts_S2128x800_S2128x800 : S2128x800.ShapeCasts S2128x800
  inb_S800x512_S800x512_0_0 : ∀ a, (![0, 0] : Fin 2 → Nat) a + S800x512.size a ≤ S800x512.size a
  h_S800x512 : 0 < S800x512.numel
  shapeCasts_S800x512_S800x512 : S800x512.ShapeCasts S800x512
  inb_S2128x512_S2128x512_0_0 : ∀ a, (![0, 0] : Fin 2 → Nat) a + S2128x512.size a ≤ S2128x512.size a
  h_S2128x512 : 0 < S2128x512.numel
  slices_S19152x512_S19152x401_0_0 : S19152x512.Slices ![0, 0] S19152x401
  shapeCasts_S19152x401_S16x1197x401 : S19152x401.ShapeCasts S16x1197x401
  bcast_S16x1197x401_S16x1197x401x1_0_1_2 : S16x1197x401.BroadcastsInDim S16x1197x401x1 (![0, 1, 2] : Fin 3 → Fin S16x1197x401x1.rank)
  concatenates_S16x1197x401x1_S16x1197x401x1_S16x1197x401x2_d3 : Shape.Concatenates [S16x1197x401x1, S16x1197x401x1] S16x1197x401x2 3
  dot_S2128x800_S800x512_S2128x512_1_0_0_1_n_n_wf : DotDims.WF S2128x800 S800x512 S2128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2128x800.size a ≤ S19152x800.size a
  hwx0_0 : ∀ i : grid0.Coords, EltTy.bits .bf16 = 32 ∨ (Rect.block (s := S19152x800) S2128x800.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S800x512.size a ≤ S800x512.size a
  hwx0_1 : ∀ i : grid0.Coords, EltTy.bits .bf16 = 32 ∨ (Rect.block (s := S800x512) S800x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S800x512.size a ≤ S800x512.size a
  hwx0_2 : ∀ i : grid0.Coords, EltTy.bits .bf16 = 32 ∨ (Rect.block (s := S800x512) S800x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2128x512.size a ≤ S19152x512.size a
  hwx0_3 : ∀ i : grid0.Coords, EltTy.bits .f32 = 32 ∨ (Rect.block (s := S19152x512) S2128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2128x512.size a ≤ S19152x512.size a
  hwx0_4 : ∀ i : grid0.Coords, EltTy.bits .f32 = 32 ∨ (Rect.block (s := S19152x512) S2128x512.size (cc0_transform_4 i) (hinb0_4 i)).WholeWords (EltTy.packing .f32)

variable [Facts₀]

def dot_S2128x800_S800x512_S2128x512_1_0_0_1_n_n : DotDims S2128x800 S800x512 S2128x512 where
  lhsContracting := [1]
  rhsContracting := [0]
  lhsNonContracting := [0]
  rhsNonContracting := [1]
  lhsBatch := []
  rhsBatch := []
  wf := dot_S2128x800_S800x512_S2128x512_1_0_0_1_n_n_wf

abbrev win0_0 : Pipeline.Window sig grid0 :=
  Pipeline.Window.ofSpec (Memref.whole main_v10) S2128x800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S800x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S800x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S2128x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S2128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x240000 : Shape := ⟨2, ![16, 240000]⟩
abbrev S800 : Shape := ⟨1, ![800]⟩
abbrev S800x800 : Shape := ⟨2, ![800, 800]⟩
abbrev S1197 : Shape := ⟨1, ![1197]⟩
abbrev S_ : Shape := ⟨0, ![]⟩
abbrev S1197x1 : Shape := ⟨2, ![1197, 1]⟩
abbrev S1x800 : Shape := ⟨2, ![1, 800]⟩
abbrev S1197x800 : Shape := ⟨2, ![1197, 800]⟩
abbrev S1197x800x1 : Shape := ⟨3, ![1197, 800, 1]⟩
abbrev S16x1197x800 : Shape := ⟨3, ![16, 1197, 800]⟩
abbrev S1x1x800 : Shape := ⟨3, ![1, 1, 800]⟩
abbrev S16x1197x401 : Shape := ⟨3, ![16, 1197, 401]⟩
abbrev S16x1197x401x1 : Shape := ⟨4, ![16, 1197, 401, 1]⟩
abbrev S16x1197x401x2 : Shape := ⟨4, ![16, 1197, 401, 2]⟩

abbrev nBuf : Space → Nat
  | .hbm => 33
  | .vmem => 0
  | .smem => 0
  | _ => 0

abbrev bufTy : (tb : Table) → Fin (tcTables nBuf tb) → BufTy
  | .hbm, ⟨0, _⟩ => ⟨S16x240000, .f32⟩
  | .hbm, ⟨1, _⟩ => ⟨S800, .f32⟩
  | .hbm, ⟨2, _⟩ => ⟨S800x800, .f32⟩
  | .hbm, ⟨3, _⟩ => ⟨S800x800, .f32⟩
  | .hbm, ⟨4, _⟩ => ⟨S1197, .i32⟩
  | .hbm, ⟨5, _⟩ => ⟨S_, .i32⟩
  | .hbm, ⟨6, _⟩ => ⟨S1197, .i32⟩
  | .hbm, ⟨7, _⟩ => ⟨S1197, .i32⟩
  | .hbm, ⟨8, _⟩ => ⟨S800, .i32⟩
  | .hbm, ⟨9, _⟩ => ⟨S1197x1, .i32⟩
  | .hbm, ⟨10, _⟩ => ⟨S1x800, .i32⟩
  | .hbm, ⟨11, _⟩ => ⟨S1197x800, .i32⟩
  | .hbm, ⟨12, _⟩ => ⟨S1197x800, .i32⟩
  | .hbm, ⟨13, _⟩ => ⟨S1197x800, .i32⟩
  | .hbm, ⟨14, _⟩ => ⟨S_, .i32⟩
  | .hbm, ⟨15, _⟩ => ⟨S1197x800, .i32⟩
  | .hbm, ⟨16, _⟩ => ⟨S1197x800, .i1⟩
  | .hbm, ⟨17, _⟩ => ⟨S_, .i32⟩
  | .hbm, ⟨18, _⟩ => ⟨S1197x800, .i32⟩
  | .hbm, ⟨19, _⟩ => ⟨S1197x800, .i32⟩
  | .hbm, ⟨20, _⟩ => ⟨S1197x800, .i32⟩
  | .hbm, ⟨21, _⟩ => ⟨S1197x800x1, .i32⟩
  | .hbm, ⟨22, _⟩ => ⟨S16x1197x800, .f32⟩
  | .hbm, ⟨23, _⟩ => ⟨S1x1x800, .f32⟩
  | .hbm, ⟨24, _⟩ => ⟨S16x1197x800, .f32⟩
  | .hbm, ⟨25, _⟩ => ⟨S16x1197x800, .f32⟩
  | .hbm, ⟨26, _⟩ => ⟨S16x1197x800, .f32⟩
  | .hbm, ⟨27, _⟩ => ⟨S16x1197x800, .f32⟩
  | .hbm, ⟨28, _⟩ => ⟨S16x1197x401, .f32⟩
  | .hbm, ⟨29, _⟩ => ⟨S16x1197x401, .f32⟩
  | .hbm, ⟨30, _⟩ => ⟨S16x1197x401x1, .f32⟩
  | .hbm, ⟨31, _⟩ => ⟨S16x1197x401x1, .f32⟩
  | .hbm, ⟨32, _⟩ => ⟨S16x1197x401x2, .f32⟩
  | _, _ => ⟨S16x240000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S1197 : S_.BroadcastsInDim S1197 (![] : Fin 0 → Fin S1197.rank)
  bcast_S1197_S1197x1_0 : S1197.BroadcastsInDim S1197x1 (![0] : Fin 1 → Fin S1197x1.rank)
  bcast_S800_S1x800_1 : S800.BroadcastsInDim S1x800 (![1] : Fin 1 → Fin S1x800.rank)
  bcast_S1197x1_S1197x800_0_1 : S1197x1.BroadcastsInDim S1197x800 (![0, 1] : Fin 2 → Fin S1197x800.rank)
  bcast_S1x800_S1197x800_0_1 : S1x800.BroadcastsInDim S1197x800 (![0, 1] : Fin 2 → Fin S1197x800.rank)
  bcast_S_S1197x800 : S_.BroadcastsInDim S1197x800 (![] : Fin 0 → Fin S1197x800.rank)
  bcast_S1197x800_S1197x800x1_0_1 : S1197x800.BroadcastsInDim S1197x800x1 (![0, 1] : Fin 2 → Fin S1197x800x1.rank)
  bcast_S800_S1x1x800_2 : S800.BroadcastsInDim S1x1x800 (![2] : Fin 1 → Fin S1x1x800.rank)
  bcast_S1x1x800_S16x1197x800_0_1_2 : S1x1x800.BroadcastsInDim S16x1197x800 (![0, 1, 2] : Fin 3 → Fin S16x1197x800.rank)
  slices_S16x1197x800_S16x1197x401_0_0_0 : S16x1197x800.Slices ![0, 0, 0] S16x1197x401
  bcast_S16x1197x401_S16x1197x401x1_0_1_2 : S16x1197x401.BroadcastsInDim S16x1197x401x1 (![0, 1, 2] : Fin 3 → Fin S16x1197x401x1.rank)
  concatenates_S16x1197x401x1_S16x1197x401x1_S16x1197x401x2_d3 : Shape.Concatenates [S16x1197x401x1, S16x1197x401x1] S16x1197x401x2 3
  gather_S16x240000_S1197x800x1_S16x1197x800_0_1_n_n_1_2_161_wf : GatherDims.WF S16x240000 S1197x800x1 S16x1197x800 [0] [1] [] [1] [] 2 ![16, 1]
  dot_S16x1197x800_S800x800_S16x1197x800_2_1_01_0_n_n_wf : DotDims.WF S16x1197x800 S800x800 S16x1197x800 [2] [1] [0, 1] [0] [] []

variable [Facts₀]

def gather_S16x240000_S1197x800x1_S16x1197x800_0_1_n_n_1_2_161 : GatherDims S16x240000 S1197x800x1 S16x1197x800 where
  offsetDims := [0]
  collapsedSliceDims := [1]
  operandBatchingDims := []
  startIndicesBatchingDims := []
  startIndexMap := [1]
  indexVectorDim := 2
  sliceSizes := ![16, 1]
  wf := gather_S16x240000_S1197x800x1_S16x1197x800_0_1_n_n_1_2_161_wf
def dot_S16x1197x800_S800x800_S16x1197x800_2_1_01_0_n_n : DotDims S16x1197x800 S800x800 S16x1197x800 where
  lhsContracting := [2]
  rhsContracting := [1]
  lhsNonContracting := [0, 1]
  rhsNonContracting := [0]
  lhsBatch := []
  rhsBatch := []
  wf := dot_S16x1197x800_S800x800_S16x1197x800_2_1_01_0_n_n_wf

class Facts : Prop extends Facts₀ where

variable [Facts]
-- ==== Proof.Spec.lean ====
/-
  What both programs compute, as one function of the four argument arrays, over the extended reals.

  A signal row of 240000 samples is cut into 1197 frames of 800 samples, frame `f` starting at sample `200 f`
  (the last one ends at sample 239999, so no frame leaves the row).  Each frame is multiplied entry by entry by the
  window, and bin `k` of its dense transform is the sum over the 800 entries of the windowed entry times row `k` of
  the cosine matrix (the real part) or of the sine matrix (the imaginary part).  The first 401 bins are kept and the
  two parts are laid side by side on a last axis of extent two.
-/
import Idealize.ShloMosaic.PureOps.Ideal
import Idealize.ShloMosaic.Lib.ValueIdx

noncomputable section

namespace Cert.Spec

open Idealize.ShloMosaic Idealize.ShloMosaic.ValueIdx

abbrev SSig : Shape := ⟨2, ![16, 240000]⟩
abbrev SWin : Shape := ⟨1, ![800]⟩
abbrev SMat : Shape := ⟨2, ![800, 800]⟩
abbrev SOut : Shape := ⟨4, ![16, 1197, 401, 2]⟩

/-- The sample that entry `n` of frame `f` reads: frames start 200 samples apart. -/
def pos (f : Fin 1197) (n : Fin 800) : Fin 240000 := ⟨200 * f.val + n.val, by have := f.isLt; have := n.isLt; omega⟩

/-- Entry `n` of frame `f` of row `b`, times the window's entry `n`. -/
def windowed (x : FVec Ideal SSig .f32) (w : FVec Ideal SWin .f32) (b : Fin 16) (f : Fin 1197) (n : Fin 800) : EReal :=
  x (ix2 b (pos f n)) * w (ix1 n)

/-- Bin `k` of the windowed frame's transform against the matrix `d`: the sum over the frame's entries. -/
def bin (x : FVec Ideal SSig .f32) (w : FVec Ideal SWin .f32) (d : FVec Ideal SMat .f32) (b : Fin 16) (f : Fin 1197) (k : Fin 800) : EReal :=
  ∑ n : Fin 800, windowed x w b f n * d (ix2 k n)

/-- A bin index below 401 as a row of the 800-row matrix. -/
def row (k : Fin 401) : Fin 800 := ⟨k.val, by have := k.isLt; omega⟩

/-- The result: at `(b, f, k, 0)` the cosine bin, at `(b, f, k, 1)` the sine bin. -/
def G (x : FVec Ideal SSig .f32) (w : FVec Ideal SWin .f32) (dc ds : FVec Ideal SMat .f32) : FVec Ideal SOut .f32 := fun i =>
  if (i 3).val = 0 then bin x w dc ⟨(i 0).val, (i 0).isLt⟩ ⟨(i 1).val, (i 1).isLt⟩ (row ⟨(i 2).val, (i 2).isLt⟩)
  else bin x w ds ⟨(i 0).val, (i 0).isLt⟩ ⟨(i 1).val, (i 1).isLt⟩ (row ⟨(i 2).val, (i 2).isLt⟩)

theorem G_re (x : FVec Ideal SSig .f32) (w : FVec Ideal SWin .f32) (dc ds : FVec Ideal SMat .f32) (b : Fin 16) (f : Fin 1197) (k : Fin 401) :
    G x w dc ds (ix4 b f k (0 : Fin 2)) = bin x w dc b f (row k) := rfl

theorem G_im (x : FVec Ideal SSig .f32) (w : FVec Ideal SWin .f32) (dc ds : FVec Ideal SMat .f32) (b : Fin 16) (f : Fin 1197) (k : Fin 401) :
    G x w dc ds (ix4 b f k (1 : Fin 2)) = bin x w ds b f (row k) := rfl

end Cert.Spec

end
-- ==== Proof.KFrame.lean ====
/-
  The frame of the framed-DFT program, for any float instance.

  The program is seventeen host operations (a signal of 240000 samples per row cut into 1197 overlapping frames of 800
  samples by a reshape into chunks of 200, four shifted slices and their concatenation; the frames times the window; the
  first 512 rows of each DFT matrix transposed), then one pipelined kernel over a grid of nine points, then seven host
  operations (the first 401 columns of each result, reshaped and joined on a new last axis).  At a grid point the kernel
  body loads one block of 2128 windowed frames and the two whole transposed matrices, and stores the two matrix products
  over its two whole output blocks; it keeps nothing from point to point.  So each output staging buffer, after the body,
  holds a closed function of the input blocks at the point, each input buffer holds its block whether or not it was
  fetched at that point, and the run of the whole program follows from the library's run of a region between two
  stretches of host operations: every array of the pipeline ends at what the proof data compute, every other buffer at
  what the later host operations leave, and the four arguments, which nothing writes, end as launched.
-/
import proofs.«129863_j31473520345491_1_alg».proof.Proof.Gen.Kernel.Launch
import proofs.«129863_j31473520345491_1_alg».proof.Proof.Gen.Kernel.Skeleton
import proofs.«129863_j31473520345491_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The buffers' contents on core `c` when the region is entered: the launch contents after the seventeen host operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier host operations, the region, the later host operations: it reduces to the region
    continued by the later ones, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer, which is none of the five. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No earlier host operation writes reference `b` when `b` is none of their seventeen results. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8
      ∧ b ≠ main_v9 ∧ b ≠ main_v10 ∧ b ≠ main_v11 ∧ b ≠ main_v12 ∧ b ≠ main_v13 ∧ b ≠ main_v14 ∧ b ≠ main_v15 ∧ b ≠ main_v16) :
    V m c b = m ((c : Thread nD τ).loc b) := by
  obtain ⟨h0, h1, h2, h3, h4, h5, h6, h7, h8, h9, h10, h11, h12, h13, h14, h15, h16⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    refine ⟨?_, ?_, ?_, ?_, ?_, ?_, ?_, ?_, ?_, ?_, ?_, ?_, ?_, ?_, ?_, ?_, ?_⟩
    all_goals exact StableHlo.devRef_ne_of_ne (by assumption)))

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)

/-- A reference that is no array of the pipeline and no result of a later host operation ends at its entry contents. -/
theorem W_of_not_written (dats : (p : Fin _) → (c : Dev nD) → Dat τ (Elt F) Unit ℕ (UR sig nD τ) ℕ (cfgs p) c) (c : Dev nD) (b : Ref sig .tc)
    (hw : ∀ w, Pipeline.arrRef spec0 w ≠ b)
    (hb : b ≠ main_v18 ∧ b ≠ main_v19 ∧ b ≠ main_v20 ∧ b ≠ main_v21 ∧ b ≠ main_v22 ∧ b ≠ main_v23 ∧ b ≠ main_v24) :
    Pipeline.afterTail₀ cfgs dats 0 (V0 m) [hostOps1] c b = V m c b := by
  obtain ⟨h0, h1, h2, h3, h4, h5, h6⟩ := hb
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      refine ⟨?_, ?_, ?_, ?_, ?_, ?_, ?_⟩
      all_goals exact StableHlo.devRef_ne_of_ne (by assumption))),
    Pipeline.withArrays_of_ne _ c (V0 m c) _ b hw]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_written m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_not_written m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_not_written m dats c main_arg2 (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_not_written m dats c main_arg3 (by decide) (by decide)).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of frames is in its staging buffer at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The cosine matrix, fetched at the first point only, is in its staging buffer at every point: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the sine matrix. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in each output buffer -/

abbrev rX : Rect S2128x800 := Rect.unit (s := S2128x800) ![0, 0] S2128x800.size inb_S2128x800_S2128x800_0_0
abbrev rM : Rect S800x512 := Rect.unit (s := S800x512) ![0, 0] S800x512.size inb_S800x512_S800x512_0_0
abbrev rO : Rect S2128x512 := Rect.unit (s := S2128x512) ![0, 0] S2128x512.size inb_S2128x512_S2128x512_0_0

/-- The real-part output buffer after the body: the product of the frames' block and the cosine matrix, stored whole. -/
def outRe (x : Vec F S2128x800 .bf16) (cs : Vec F S800x512 .bf16) : Vec F S2128x512 .f32 :=
  View.canon [⟨rO, k0_pay2 (View.ld x rX) (View.ld cs rM)⟩]
/-- The imaginary-part output buffer after the body: the product with the sine matrix. -/
def outIm (x : Vec F S2128x800 .bf16) (sn : Vec F S800x512 .bf16) : Vec F S2128x512 .f32 :=
  View.canon [⟨rO, k0_pay3 (View.ld x rX) (View.ld sn rM)⟩]

/-- One store through the whole rectangle covers the buffer. -/
theorem coverO (p0 : Vec F S2128x512 .f32) (y : S2128x512.Idx) :
    ∃ pc ∈ ([⟨rO, p0⟩] : List (View.Piece (Elt F) S2128x512 .f32)), y ∈ pc.1.set :=
  View.cover_of_tiled [⟨rO, p0⟩] S2128x512.size (by rfl) y

/-! ## The body's triple -/

set_option maxHeartbeats 1000000 in
/-- The body on whole staging memrefs — the three inputs' at read contents, the two outputs' at anything — runs to the
    continuation holding the inputs' as they were and the outputs' at the two products. -/
theorem sound_kernel (c : Dev nD) (E : Set ℕ) (i : grid0.Coords)
    (arg1 : Memref sig .tc .vmem S2128x800 .bf16) (harg1 : arg1.IsWhole) (arg2 : Memref sig .tc .vmem S800x512 .bf16) (harg2 : arg2.IsWhole)
    (arg3 : Memref sig .tc .vmem S800x512 .bf16) (harg3 : arg3.IsWhole) (arg4 : Memref sig .tc .vmem S2128x512 .f32) (harg4 : arg4.IsWhole)
    (arg5 : Memref sig .tc .vmem S2128x512 .f32) (harg5 : arg5.IsWhole)
    (x : Vec F S2128x800 .bf16) (cs sn : Vec F S800x512 .bf16) (K : PUnit → sProp 𝕄) :
    iprop(owns (c : Thread nD τ) arg1 fullShare x ∗ owns (c : Thread nD τ) arg2 fullShare cs ∗ owns (c : Thread nD τ) arg3 fullShare sn
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare cs ∗ owns (c : Thread nD τ) arg3 fullShare sn
            ∗ owns (c : Thread nD τ) arg4 fullShare (outRe x cs) ∗ owns (c : Thread nD τ) arg5 fullShare (outIm x sn)) -∗ K ⟨⟩))
      ⊢ wp frame (wpE (defs₀ (F := F)) Variants.none c none) E (cc0__dft_kernel i arg1 harg1 arg2 harg2 arg3 harg3 arg4 harg4 arg5 harg5) K := by
  simp only [cc0__dft_kernel_eq_skeleton]; unfold cc0__dft_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The pipeline's proof data -/

/-- The proof data on core `c`: the arrays as the region finds them; after the body at point `t` each input buffer at its
    block, each output buffer at its product of the blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outRe (iblk m c 0 t) (iblk m c 1 t)
    | ⟨4, _⟩ => outIm (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outRe (iblk m c 0 t) (iblk m c 1 t) := by dsimp only [dats]
theorem after0_4 (c : Dev nD) (t : Fin cfg0.N) : (dats m 0 c).after 4 t = outIm (iblk m c 0 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and in every final state
    every array of the pipeline is at what the proof data compute and every other unscoped buffer as the later host
    operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.Kernel.Hand

end
-- ==== Proof.KIFrame.lean ====
/-
  The frame of the framed-DFT program, for any float instance.

  The program is seventeen host operations (a signal of 240000 samples per row cut into 1197 overlapping frames of 800
  samples by a reshape into chunks of 200, four shifted slices and their concatenation; the frames times the window; the
  first 512 rows of each DFT matrix transposed), then one pipelined kernel over a grid of nine points, then seven host
  operations (the first 401 columns of each result, reshaped and joined on a new last axis).  At a grid point the kernel
  body loads one block of 2128 windowed frames and the two whole transposed matrices, and stores the two matrix products
  over its two whole output blocks; it keeps nothing from point to point.  So each output staging buffer, after the body,
  holds a closed function of the input blocks at the point, each input buffer holds its block whether or not it was
  fetched at that point, and the run of the whole program follows from the library's run of a region between two
  stretches of host operations: every array of the pipeline ends at what the proof data compute, every other buffer at
  what the later host operations leave, and the four arguments, which nothing writes, end as launched.
-/
import proofs.«129863_j31473520345491_1_alg».proof.Proof.Gen.KernelIdeal.Launch
import proofs.«129863_j31473520345491_1_alg».proof.Proof.Gen.KernelIdeal.Skeleton
import proofs.«129863_j31473520345491_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The buffers' contents on core `c` when the region is entered: the launch contents after the seventeen host operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier host operations, the region, the later host operations: it reduces to the region
    continued by the later ones, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer, which is none of the five. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No earlier host operation writes reference `b` when `b` is none of their seventeen results. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8
      ∧ b ≠ main_v9 ∧ b ≠ main_v10 ∧ b ≠ main_v11 ∧ b ≠ main_v12 ∧ b ≠ main_v13 ∧ b ≠ main_v14 ∧ b ≠ main_v15 ∧ b ≠ main_v16) :
    V m c b = m ((c : Thread nD τ).loc b) := by
  obtain ⟨h0, h1, h2, h3, h4, h5, h6, h7, h8, h9, h10, h11, h12, h13, h14, h15, h16⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    refine ⟨?_, ?_, ?_, ?_, ?_, ?_, ?_, ?_, ?_, ?_, ?_, ?_, ?_, ?_, ?_, ?_, ?_⟩
    all_goals exact StableHlo.devRef_ne_of_ne (by assumption)))

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)

/-- A reference that is no array of the pipeline and no result of a later host operation ends at its entry contents. -/
theorem W_of_not_written (dats : (p : Fin _) → (c : Dev nD) → Dat τ (Elt F) Unit ℕ (UR sig nD τ) ℕ (cfgs p) c) (c : Dev nD) (b : Ref sig .tc)
    (hw : ∀ w, Pipeline.arrRef spec0 w ≠ b)
    (hb : b ≠ main_v18 ∧ b ≠ main_v19 ∧ b ≠ main_v20 ∧ b ≠ main_v21 ∧ b ≠ main_v22 ∧ b ≠ main_v23 ∧ b ≠ main_v24) :
    Pipeline.afterTail₀ cfgs dats 0 (V0 m) [hostOps1] c b = V m c b := by
  obtain ⟨h0, h1, h2, h3, h4, h5, h6⟩ := hb
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      refine ⟨?_, ?_, ?_, ?_, ?_, ?_, ?_⟩
      all_goals exact StableHlo.devRef_ne_of_ne (by assumption))),
    Pipeline.withArrays_of_ne _ c (V0 m c) _ b hw]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_written m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_not_written m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_not_written m dats c main_arg2 (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_not_written m dats c main_arg3 (by decide) (by decide)).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of frames is in its staging buffer at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The cosine matrix, fetched at the first point only, is in its staging buffer at every point: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the sine matrix. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in each output buffer -/

abbrev rX : Rect S2128x800 := Rect.unit (s := S2128x800) ![0, 0] S2128x800.size inb_S2128x800_S2128x800_0_0
abbrev rM : Rect S800x512 := Rect.unit (s := S800x512) ![0, 0] S800x512.size inb_S800x512_S800x512_0_0
abbrev rO : Rect S2128x512 := Rect.unit (s := S2128x512) ![0, 0] S2128x512.size inb_S2128x512_S2128x512_0_0

/-- The real-part output buffer after the body: the product of the frames' block and the cosine matrix, stored whole. -/
def outRe (x : Vec F S2128x800 .bf16) (cs : Vec F S800x512 .bf16) : Vec F S2128x512 .f32 :=
  View.canon [⟨rO, k0_pay2 (View.ld x rX) (View.ld cs rM)⟩]
/-- The imaginary-part output buffer after the body: the product with the sine matrix. -/
def outIm (x : Vec F S2128x800 .bf16) (sn : Vec F S800x512 .bf16) : Vec F S2128x512 .f32 :=
  View.canon [⟨rO, k0_pay3 (View.ld x rX) (View.ld sn rM)⟩]

/-- One store through the whole rectangle covers the buffer. -/
theorem coverO (p0 : Vec F S2128x512 .f32) (y : S2128x512.Idx) :
    ∃ pc ∈ ([⟨rO, p0⟩] : List (View.Piece (Elt F) S2128x512 .f32)), y ∈ pc.1.set :=
  View.cover_of_tiled [⟨rO, p0⟩] S2128x512.size (by rfl) y

/-! ## The body's triple -/

set_option maxHeartbeats 1000000 in
/-- The body on whole staging memrefs — the three inputs' at read contents, the two outputs' at anything — runs to the
    continuation holding the inputs' as they were and the outputs' at the two products. -/
theorem sound_kernel (c : Dev nD) (E : Set ℕ) (i : grid0.Coords)
    (arg1 : Memref sig .tc .vmem S2128x800 .bf16) (harg1 : arg1.IsWhole) (arg2 : Memref sig .tc .vmem S800x512 .bf16) (harg2 : arg2.IsWhole)
    (arg3 : Memref sig .tc .vmem S800x512 .bf16) (harg3 : arg3.IsWhole) (arg4 : Memref sig .tc .vmem S2128x512 .f32) (harg4 : arg4.IsWhole)
    (arg5 : Memref sig .tc .vmem S2128x512 .f32) (harg5 : arg5.IsWhole)
    (x : Vec F S2128x800 .bf16) (cs sn : Vec F S800x512 .bf16) (K : PUnit → sProp 𝕄) :
    iprop(owns (c : Thread nD τ) arg1 fullShare x ∗ owns (c : Thread nD τ) arg2 fullShare cs ∗ owns (c : Thread nD τ) arg3 fullShare sn
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare cs ∗ owns (c : Thread nD τ) arg3 fullShare sn
            ∗ owns (c : Thread nD τ) arg4 fullShare (outRe x cs) ∗ owns (c : Thread nD τ) arg5 fullShare (outIm x sn)) -∗ K ⟨⟩))
      ⊢ wp frame (wpE (defs₀ (F := F)) Variants.none c none) E (cc0__dft_kernel i arg1 harg1 arg2 harg2 arg3 harg3 arg4 harg4 arg5 harg5) K := by
  simp only [cc0__dft_kernel_eq_skeleton]; unfold cc0__dft_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The pipeline's proof data -/

/-- The proof data on core `c`: the arrays as the region finds them; after the body at point `t` each input buffer at its
    block, each output buffer at its product of the blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outRe (iblk m c 0 t) (iblk m c 1 t)
    | ⟨4, _⟩ => outIm (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outRe (iblk m c 0 t) (iblk m c 1 t) := by dsimp only [dats]
theorem after0_4 (c : Dev nD) (t : Fin cfg0.N) : (dats m 0 c).after 4 t = outIm (iblk m c 0 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and in every final state
    every array of the pipeline is at what the proof data compute and every other unscoped buffer as the later host
    operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.KernelIdeal.Hand

end
-- ==== Proof.KIHost.lean ====
/-
  What the pipeline's three input arrays hold when the region is entered, as functions of the program's arguments.

  The frames' array: the signal, reshaped into chunks of 200 samples, 1200 per row; four slices of it, chunks
  `c … c + 1196` for `c = 0, 1, 2, 3`, laid side by side along the last axis, so that row `f` of the result is chunks
  `f, f + 1, f + 2, f + 3`, which are the 800 samples from sample `200 f` on; that times the window; the first two
  axes merged, row `b` frame `f` becoming row `1197 b + f`.  The two matrices: rows 0 … 511 of a DFT matrix, transposed.
  A change of float format is the identity on the extended reals.
-/
import proofs.«129863_j31473520345491_1_alg».proof.Proof.KIFrame
import proofs.«129863_j31473520345491_1_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostSide

open Cert.KernelIdeal Cert.KernelIdeal.Gen Cert.KernelIdeal.Hand
open Idealize.ShloMosaic Idealize.ShloMosaic.TcCoe Idealize.SL.Sem Idealize.ShloMosaic.StableHlo Idealize.ShloMosaic.ValueIdx

section AnyInstance

variable {F : FTy → Type} [FloatOps F]
variable (m : (ℓ : Loc nD τ sig) → Buf (Elt F) ℓ)

/-- The signal in chunks of 200 samples. -/
def chunks (x : FVec F S16x240000 .f32) : FVec F S16x1200x200 .f32 := shapeCast S16x1200x200 x shapeCasts_S16x240000_S16x1200x200

/-- The four shifted slices side by side: the frames. -/
def framesOf (x : FVec F S16x240000 .f32) : FVec F S16x1197x800 .f32 :=
  concatenate S16x1197x800 2 [⟨S16x1197x200, extractStridedSlice S16x1197x200 ![0, 0, 0] (chunks x) slices_S16x1200x200_S16x1197x200_0_0_0⟩,
      ⟨S16x1197x200, extractStridedSlice S16x1197x200 ![0, 1, 0] (chunks x) slices_S16x1200x200_S16x1197x200_0_1_0⟩,
      ⟨S16x1197x200, extractStridedSlice S16x1197x200 ![0, 2, 0] (chunks x) slices_S16x1200x200_S16x1197x200_0_2_0⟩,
      ⟨S16x1197x200, extractStridedSlice S16x1197x200 ![0, 3, 0] (chunks x) slices_S16x1200x200_S16x1197x200_0_3_0⟩]
      concatenates_S16x1197x200_S16x1197x200_S16x1197x200_S16x1197x200_S16x1197x800_d2

/-- The window along the frames' last axis. -/
def windowOf (w : FVec F S800 .f32) : FVec F S16x1197x800 .f32 :=
  broadcastInDim S16x1197x800 ![0, 1, 2] bcast_S1x1x800_S16x1197x800_0_1_2 (broadcastInDim S1x1x800 ![2] bcast_S800_S1x1x800_2 w)

/-- The windowed frames, one row per (signal row, frame), in the kernel's input format. -/
def framesHost (x : FVec F S16x240000 .f32) (w : FVec F S800 .f32) : Vec F S19152x800 .bf16 :=
  truncf .bf16 (shapeCast S19152x800 (mulf (framesOf x) (windowOf w)) shapeCasts_S16x1197x800_S19152x800) bitsLt_bf16_f32

/-- The first 512 rows of a DFT matrix, transposed, in the kernel's input format. -/
def matHost (d : FVec F S800x800 .f32) : Vec F S800x512 .bf16 :=
  truncf .bf16 (transpose S800x512 [1, 0] (extractStridedSlice S512x800 ![0, 0] d slices_S800x800_S512x800_0_0) transposes_S512x800_S800x512_1_0) bitsLt_bf16_f32

/-- The region finds the frames' array at `framesHost` of the signal and the window as launched. -/
theorem V_frames (c : Dev nD) : (V m c main_v10 : Vec F S19152x800 .bf16)
    = framesHost (m ((c : Thread nD τ).loc main_arg0)) (m ((c : Thread nD τ).loc main_arg1)) := by
  show StableHlo.after hostOps0 (fun b => m (c, b)) (Proc.devRef .tc main_v10) = _
  simp only [after_cons, after_nil]
  repeat (first
    | rw [unary_result] | rw [binary_result] | rw [reshape_result]
    | (rw [unary_result_ne]; rotate_left; decide)
    | (rw [binary_result_ne]; rotate_left; decide)
    | (rw [reshape_result_ne]; rotate_left; decide)
    | (rw [nary_result_ne]; rotate_left; decide))
  rw [nary4_result]
  after_results
  rfl

/-- The cosine matrix's array. -/
theorem V_cos (c : Dev nD) : (V m c main_v13 : Vec F S800x512 .bf16) = matHost (m ((c : Thread nD τ).loc main_arg2)) := by
  show StableHlo.after hostOps0 (fun b => m (c, b)) (Proc.devRef .tc main_v13) = _
  after_results
  rfl

/-- The sine matrix's array. -/
theorem V_sin (c : Dev nD) : (V m c main_v16 : Vec F S800x512 .bf16) = matHost (m ((c : Thread nD τ).loc main_arg3)) := by
  show StableHlo.after hostOps0 (fun b => m (c, b)) (Proc.devRef .tc main_v16) = _
  after_results
  rfl

/-- Chunk `q` of row `b`, entry `j`, is sample `200 q + j` of the row. -/
theorem chunks_apply (x : FVec F S16x240000 .f32) (b : Fin 16) (q : Fin 1200) (j : Fin 200) (p : Fin 240000) (hp : p.val = q.val * 200 + j.val) :
    chunks x (ix3 b q j) = x (ix2 b p) := by
  unfold chunks
  refine shapeCast_apply x _ (ix3 b q j) (ix2 b p) ?_
  rw [Shape.rowMajor_val_two, Shape.rowMajor_val_three]
  show b.val * 240000 + p.val = (b.val * 1200 + q.val) * 200 + j.val
  omega

/-- Slice `c` of an array of chunks at frame `f` is chunk `f + c`. -/
theorem slice_apply (y : FVec F S16x1200x200 .f32) (c : Nat) (h : S16x1200x200.Slices ![0, c, 0] S16x1197x200)
    (b : Fin 16) (f : Fin 1197) (j : Fin 200) (q : Fin 1200) (hq : q.val = c + f.val) :
    extractStridedSlice S16x1197x200 ![0, c, 0] y h (ix3 b f j) = y (ix3 b q j) :=
  extractStridedSlice_apply ![0, c, 0] y h (ix3 b f j) (ix3 b q j) (fun a => match a with
    | ⟨0, _⟩ => by show b.val = 0 + b.val; omega
    | ⟨1, _⟩ => by show q.val = c + f.val; omega
    | ⟨2, _⟩ => by show j.val = 0 + j.val; omega)

/-- Entry `n` of frame `f` of row `b` is the signal's sample `200 f + n`. -/
theorem framesOf_apply (x : FVec F S16x240000 .f32) (b : Fin 16) (f : Fin 1197) (n : Fin 800) :
    framesOf x (ix3 b f n) = x (ix2 b (Spec.pos f n)) := by
  have hn := n.isLt
  have hf := f.isLt
  have hpos : (Spec.pos f n).val = 200 * f.val + n.val := rfl
  unfold framesOf
  rcases (by omega : n.val < 200 ∨ (200 ≤ n.val ∧ n.val < 400) ∨ (400 ≤ n.val ∧ n.val < 600) ∨ 600 ≤ n.val) with h | h | h | h
  · rw [concatenate_apply_piece (2 : Fin 3) _ _ (ix3 b f n) 0 (by show (0 : Nat) < 4; omega) S16x1197x200 _ rfl rfl 0 rfl (ix3 b f ⟨n.val, h⟩)
        (fun a ha => match a with | ⟨0, _⟩ => rfl | ⟨1, _⟩ => rfl | ⟨2, _⟩ => absurd rfl ha) (by show 0 + n.val = n.val; omega),
      slice_apply (chunks x) 0 _ b f ⟨n.val, h⟩ ⟨f.val, by omega⟩ (by show f.val = 0 + f.val; omega),
      chunks_apply x b ⟨f.val, by omega⟩ ⟨n.val, h⟩ (Spec.pos f n) (by rw [hpos]; show _ = f.val * 200 + n.val; omega)]
  · rw [concatenate_apply_piece (2 : Fin 3) _ _ (ix3 b f n) 1 (by show (1 : Nat) < 4; omega) S16x1197x200 _ rfl rfl 200 rfl (ix3 b f ⟨n.val - 200, by omega⟩)
        (fun a ha => match a with | ⟨0, _⟩ => rfl | ⟨1, _⟩ => rfl | ⟨2, _⟩ => absurd rfl ha) (by show 200 + (n.val - 200) = n.val; omega),
      slice_apply (chunks x) 1 _ b f ⟨n.val - 200, by omega⟩ ⟨f.val + 1, by omega⟩ (by show f.val + 1 = 1 + f.val; omega),
      chunks_apply x b ⟨f.val + 1, by omega⟩ ⟨n.val - 200, by omega⟩ (Spec.pos f n) (by rw [hpos]; show _ = (f.val + 1) * 200 + (n.val - 200); omega)]
  · rw [concatenate_apply_piece (2 : Fin 3) _ _ (ix3 b f n) 2 (by show (2 : Nat) < 4; omega) S16x1197x200 _ rfl rfl 400 rfl (ix3 b f ⟨n.val - 400, by omega⟩)
        (fun a ha => match a with | ⟨0, _⟩ => rfl | ⟨1, _⟩ => rfl | ⟨2, _⟩ => absurd rfl ha) (by show 400 + (n.val - 400) = n.val; omega),
      slice_apply (chunks x) 2 _ b f ⟨n.val - 400, by omega⟩ ⟨f.val + 2, by omega⟩ (by show f.val + 2 = 2 + f.val; omega),
      chunks_apply x b ⟨f.val + 2, by omega⟩ ⟨n.val - 400, by omega⟩ (Spec.pos f n) (by rw [hpos]; show _ = (f.val + 2) * 200 + (n.val - 400); omega)]
  · rw [concatenate_apply_piece (2 : Fin 3) _ _ (ix3 b f n) 3 (by show (3 : Nat) < 4; omega) S16x1197x200 _ rfl rfl 600 rfl (ix3 b f ⟨n.val - 600, by omega⟩)
        (fun a ha => match a with | ⟨0, _⟩ => rfl | ⟨1, _⟩ => rfl | ⟨2, _⟩ => absurd rfl ha) (by show 600 + (n.val - 600) = n.val; omega),
      slice_apply (chunks x) 3 _ b f ⟨n.val - 600, by omega⟩ ⟨f.val + 3, by omega⟩ (by show f.val + 3 = 3 + f.val; omega),
      chunks_apply x b ⟨f.val + 3, by omega⟩ ⟨n.val - 600, by omega⟩ (Spec.pos f n) (by rw [hpos]; show _ = (f.val + 3) * 200 + (n.val - 600); omega)]

/-- The window broadcast along the frames reads the window's entry `n`. -/
theorem windowOf_apply (w : FVec F S800 .f32) (b : Fin 16) (f : Fin 1197) (n : Fin 800) :
    windowOf w (ix3 b f n) = w (ix1 n) := by
  unfold windowOf
  rw [broadcastInDim_apply _ bcast_S1x1x800_S16x1197x800_0_1_2 _ (ix3 b f n) (ix3 (0 : Fin 1) (0 : Fin 1) n) (fun a => match a with
      | ⟨0, _⟩ => by show 0 = if (1 : Nat) = 1 then 0 else b.val; rw [if_pos rfl]
      | ⟨1, _⟩ => by show 0 = if (1 : Nat) = 1 then 0 else f.val; rw [if_pos rfl]
      | ⟨2, _⟩ => by show n.val = if (800 : Nat) = 1 then 0 else n.val; rw [if_neg (by decide)]),
    broadcastInDim_apply _ bcast_S800_S1x1x800_2 w (ix3 (0 : Fin 1) (0 : Fin 1) n) (ix1 n) (fun a => match a with
      | ⟨0, _⟩ => by show n.val = if (800 : Nat) = 1 then 0 else n.val; rw [if_neg (by decide)])]

/-- Entry `(n, k)` of the transposed matrix is entry `(k, n)` of the matrix. -/
theorem transposed_apply (d : FVec F S800x800 .f32) (n : Fin 800) (k : Fin 512) (k' : Fin 800) (hk : k'.val = k.val) :
    transpose S800x512 [1, 0] (extractStridedSlice S512x800 ![0, 0] d slices_S800x800_S512x800_0_0) transposes_S512x800_S800x512_1_0 (ix2 n k)
      = d (ix2 k' n) := by
  rw [transpose_apply [1, 0] _ transposes_S512x800_S800x512_1_0 (ix2 n k) (ix2 k n) (fun a => match a with
      | ⟨0, _⟩ => rfl
      | ⟨1, _⟩ => rfl),
    extractStridedSlice_apply ![0, 0] d slices_S800x800_S512x800_0_0 (ix2 k n) (ix2 k' n) (fun a => match a with
      | ⟨0, _⟩ => by show k'.val = 0 + k.val; omega
      | ⟨1, _⟩ => by show n.val = 0 + n.val; omega)]

end AnyInstance

/-! ## At the extended reals -/

/-- Row `1197 b + f` of the windowed frames, entry `n`: the specification's windowed entry. -/
theorem framesHost_apply (x : FVec Ideal S16x240000 .f32) (w : FVec Ideal S800 .f32) (b : Fin 16) (f : Fin 1197) (n : Fin 800)
    (r : Fin 19152) (hr : r.val = b.val * 1197 + f.val) :
    framesHost (F := Ideal) x w (ix2 r n) = Spec.windowed x w b f n := by
  unfold framesHost
  show shapeCast S19152x800 (mulf (framesOf x) (windowOf w)) shapeCasts_S16x1197x800_S19152x800 (ix2 r n) = _
  rw [shapeCast_apply _ shapeCasts_S16x1197x800_S19152x800 (ix2 r n) (ix3 b f n) (by
    rw [Shape.rowMajor_val_two, Shape.rowMajor_val_three]
    show (b.val * 1197 + f.val) * 800 + n.val = r.val * 800 + n.val
    rw [hr])]
  show framesOf x (ix3 b f n) * windowOf w (ix3 b f n) = _
  rw [framesOf_apply, windowOf_apply]
  rfl

/-- Entry `(n, k)` of a matrix's array: entry `(k, n)` of the matrix. -/
theorem matHost_apply (d : FVec Ideal S800x800 .f32) (n : Fin 800) (k : Fin 512) (k' : Fin 800) (hk : k'.val = k.val) :
    matHost (F := Ideal) d (ix2 n k) = d (ix2 k' n) := by
  unfold matHost
  exact transposed_apply d n k k' hk

end Cert.KernelIdeal.HostSide

end
-- ==== Proof.KIPay.lean ====
/-
  The kernel body's two stored values, read at an index, over the extended reals.

  Each is the matrix unit's product of the loaded block of frames (2128 rows of 800 entries) and a loaded matrix
  (800 rows of 512 entries) into a zero accumulator: at row `p` and column `q` the sum over the 800 contracted
  entries of the frame's entry times the matrix's — no rounding and no order of summation is left at the extended reals.
-/
import proofs.«129863_j31473520345491_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx

/-- The product's left operand index keeps the output's row, -/
theorem lhs_0 (i : S2128x512.Idx) (q : dot_S2128x800_S800x512_S2128x512_1_0_0_1_n_n.contr.Idx) :
    (dot_S2128x800_S800x512_S2128x512_1_0_0_1_n_n.lhsIdx i q 0).val = (i 0).val := by
  unfold DotDims.lhsIdx
  rw [dif_neg (show ¬(0 : Fin S2128x800.rank) ∈ dot_S2128x800_S800x512_S2128x512_1_0_0_1_n_n.lhsBatch by decide), dif_pos (show (0 : Fin S2128x800.rank) ∈ dot_S2128x800_S800x512_S2128x512_1_0_0_1_n_n.lhsNonContracting by decide)]
  rfl
/-- and takes the contraction index as its column; -/
theorem lhs_1 (i : S2128x512.Idx) (q : dot_S2128x800_S800x512_S2128x512_1_0_0_1_n_n.contr.Idx) :
    (dot_S2128x800_S800x512_S2128x512_1_0_0_1_n_n.lhsIdx i q 1).val = (q ⟨0, by decide⟩).val :=
  dot_S2128x800_S800x512_S2128x512_1_0_0_1_n_n.lhsIdx_val_of_single rfl i q
/-- the right operand index takes the contraction index as its row, -/
theorem rhs_0 (i : S2128x512.Idx) (q : dot_S2128x800_S800x512_S2128x512_1_0_0_1_n_n.contr.Idx) :
    (dot_S2128x800_S800x512_S2128x512_1_0_0_1_n_n.rhsIdx i q 0).val = (q ⟨0, by decide⟩).val :=
  dot_S2128x800_S800x512_S2128x512_1_0_0_1_n_n.rhsIdx_val_of_single rfl i q
/-- and keeps the output's column. -/
theorem rhs_1 (i : S2128x512.Idx) (q : dot_S2128x800_S800x512_S2128x512_1_0_0_1_n_n.contr.Idx) :
    (dot_S2128x800_S800x512_S2128x512_1_0_0_1_n_n.rhsIdx i q 1).val = (i 1).val := by
  unfold DotDims.rhsIdx
  rw [dif_neg (show ¬(1 : Fin S800x512.rank) ∈ dot_S2128x800_S800x512_S2128x512_1_0_0_1_n_n.rhsBatch by decide), dif_pos (show (1 : Fin S800x512.rank) ∈ dot_S2128x800_S800x512_S2128x512_1_0_0_1_n_n.rhsNonContracting by decide)]
  rfl

/-- The product into the zero accumulator at `(p, q)`: the sum over `n` of `x (p, n) · y (n, q)`. -/
theorem product_apply (x : FVec Ideal S2128x800 .bf16) (y : FVec Ideal S800x512 .bf16) (p : Fin 2128) (q : Fin 512) :
    matmul dot_S2128x800_S800x512_S2128x512_1_0_0_1_n_n none x y (constant S2128x512 .f32 0x00000000#32) (ix2 p q)
      = ∑ n : Fin 800, x (ix2 p n) * y (ix2 n q) := by
  simp only [matmul]
  rw [Ideal.matmul_constant_zero_apply, ← Equiv.sum_comp (contrEquiv1 dot_S2128x800_S800x512_S2128x512_1_0_0_1_n_n 800 rfl rfl).symm]
  refine Finset.sum_congr rfl fun k _ => ?_
  have hk := contrEquiv1_symm_val dot_S2128x800_S800x512_S2128x512_1_0_0_1_n_n 800 rfl rfl k
  have el : dot_S2128x800_S800x512_S2128x512_1_0_0_1_n_n.lhsIdx (ix2 p q) ((contrEquiv1 dot_S2128x800_S800x512_S2128x512_1_0_0_1_n_n 800 rfl rfl).symm k) = ix2 p k := funext fun a => Fin.ext (by
    match a with
    | ⟨0, _⟩ => exact lhs_0 _ _
    | ⟨1, _⟩ => exact (lhs_1 _ _).trans hk)
  have er : dot_S2128x800_S800x512_S2128x512_1_0_0_1_n_n.rhsIdx (ix2 p q) ((contrEquiv1 dot_S2128x800_S800x512_S2128x512_1_0_0_1_n_n 800 rfl rfl).symm k) = ix2 k q := funext fun a => Fin.ext (by
    match a with
    | ⟨0, _⟩ => exact (rhs_0 _ _).trans hk
    | ⟨1, _⟩ => exact rhs_1 _ _)
  rw [el, er]

/-- The real part's stored value at `(p, q)`. -/
theorem payRe_apply (v0 : Vec Ideal S2128x800 .bf16) (v2 : Vec Ideal S800x512 .bf16) (p : Fin 2128) (q : Fin 512) :
    k0_pay2 (F := Ideal) v0 v2 (ix2 p q) = ∑ n : Fin 800, v0 (ix2 p n) * v2 (ix2 n q) := by
  unfold k0_pay2 k0_pay1
  show matmul dot_S2128x800_S800x512_S2128x512_1_0_0_1_n_n none (shapeCast S2128x800 v0 shapeCasts_S2128x800_S2128x800 : FVec Ideal S2128x800 .bf16) (shapeCast S800x512 v2 shapeCasts_S800x512_S800x512 : FVec Ideal S800x512 .bf16)
    (constant S2128x512 .f32 0x00000000#32) (ix2 p q) = _
  rw [shapeCast_self, shapeCast_self]
  exact product_apply v0 v2 p q

/-- The imaginary part's stored value at `(p, q)`. -/
theorem payIm_apply (v0 : Vec Ideal S2128x800 .bf16) (v4 : Vec Ideal S800x512 .bf16) (p : Fin 2128) (q : Fin 512) :
    k0_pay3 (F := Ideal) v0 v4 (ix2 p q) = ∑ n : Fin 800, v0 (ix2 p n) * v4 (ix2 n q) := by
  unfold k0_pay3 k0_pay1
  show matmul dot_S2128x800_S800x512_S2128x512_1_0_0_1_n_n none (shapeCast S2128x800 v0 shapeCasts_S2128x800_S2128x800 : FVec Ideal S2128x800 .bf16) (shapeCast S800x512 v4 shapeCasts_S800x512_S800x512 : FVec Ideal S800x512 .bf16)
    (constant S2128x512 .f32 0x00000000#32) (ix2 p q) = _
  rw [shapeCast_self, shapeCast_self]
  exact product_apply v0 v4 p q

end Cert.KernelIdeal.Payload

end
-- ==== Proof.KIArr.lean ====
/-
  The two result arrays of the pipeline after the run, as whole-array functions of its input arrays.

  At grid point `t` the kernel's block of frames is rows `2128 t … 2128 t + 2127` of the frames' array, each matrix block is
  the whole matrix, and the two output blocks are rows `2128 t …` of the two results.  So what point `t` writes back is
  block `t` of the product of the whole frames' array with the whole matrix — row `r`, column `q`: the sum over the 800
  entries of frame `r`'s entry times the matrix's entry in column `q` — and since the nine blocks tile the 19152 rows,
  each result array ends at that product.
-/
import proofs.«129863_j31473520345491_1_alg».proof.Proof.KIFrame
import proofs.«129863_j31473520345491_1_alg».proof.Proof.KIPay
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Hand Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The product of an array of frames and a matrix, index by index. -/
def prodArr (X : Vec Ideal S19152x800 .bf16) (M : Vec Ideal S800x512 .bf16) : Vec Ideal S19152x512 .f32 := fun i =>
  ∑ n : Fin 800, X (ix2 ⟨(i 0).val, (i 0).isLt⟩ n) * M (ix2 n ⟨(i 1).val, (i 1).isLt⟩)

/-- The printed index maps, decided over the nine points: the frames' and the results' block rows are the point, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the frames' block at point `t` is row `2128 t + p` of the frames' array. -/
theorem frames_blk (c : Dev nD) (t : Fin cfg0.N) (p : Fin 2128) (n : Fin 800) (r : Fin 19152) (hr : r.val = t.val * 2128 + p.val) :
    iblk m c 0 t (ix2 p n) = V m c main_v10 (ix2 r n) := by
  obtain ⟨e0, e1, e2, e3, e4, e5, e6, e7, e8, e9⟩ := idx_facts t
  show V m c main_v10 (((cfg0.win 0).blk t).view.emb (ix2 p n)) = _
  refine congrArg (V m c main_v10) (funext fun a => Fin.ext ?_)
  match a with
  | ⟨0, _⟩ => show win0_0.index t (0 : Fin 2) * 2128 + 1 * p.val = r.val; omega
  | ⟨1, _⟩ => show win0_0.index t (1 : Fin 2) * 800 + 1 * n.val = n.val; omega

/-! ## The real part -/

/-- A block's stored value is the whole product read at the block's place: row `p` of the block is row `r0 + p` of the
    frames' array, the matrix is whole. -/
theorem blockRe (x : Vec Ideal S2128x800 .bf16) (mt : Vec Ideal S800x512 .bf16) (X : Vec Ideal S19152x800 .bf16) (M : Vec Ideal S800x512 .bf16)
    (r0 : Nat) (hx : ∀ (p : Fin 2128) (n : Fin 800) (r : Fin 19152), r.val = r0 + p.val → x (ix2 p n) = X (ix2 r n))
    (hm : ∀ (n : Fin 800) (q : Fin 512), mt (ix2 n q) = M (ix2 n q))
    (y : S2128x512.Idx) (i : S19152x512.Idx) (h0 : (i 0).val = r0 + (y 0).val) (h1 : (i 1).val = (y 1).val) :
    k0_pay2 (F := Ideal) x mt y = prodArr X M i := by
  obtain ⟨p, q, rfl⟩ : ∃ (p : Fin 2128) (q : Fin 512), y = ix2 p q := ⟨y 0, y 1, eq_ix2 y⟩
  rw [payRe_apply]
  unfold prodArr
  refine Finset.sum_congr rfl fun n _ => ?_
  rw [hx p n ⟨(i 0).val, (i 0).isLt⟩ h0, hm n q]
  exact congrArg (fun q' => X (ix2 ⟨(i 0).val, (i 0).isLt⟩ n) * M (ix2 n q')) (Fin.ext h1.symm)

/-- The matrix's block at any point is the whole matrix. -/
theorem cos_blk (c : Dev nD) (t : Fin cfg0.N) (n : Fin 800) (q : Fin 512) :
    iblk m c 1 t (ix2 n q) = V m c main_v13 (ix2 n q) := by
  obtain ⟨e0, e1, e2, e3, e4, e5, e6, e7, e8, e9⟩ := idx_facts t
  show V m c main_v13 (((cfg0.win 1).blk t).view.emb (ix2 n q)) = _
  refine congrArg (V m c main_v13) (funext fun a => Fin.ext ?_)
  match a with
  | ⟨0, _⟩ => show win0_1.index t (0 : Fin 2) * 800 + 1 * n.val = n.val; omega
  | ⟨1, _⟩ => show win0_1.index t (1 : Fin 2) * 512 + 1 * q.val = q.val; omega

/-- What point `t` writes back is block `t` of the product of the arrays as the region finds them. -/
theorem flushedRe (c : Dev nD) (t : Fin cfg0.N) :
    (dats m 0 c).flushed 3 t = ((cfg0.win 3).blk t).view.read (Elt Ideal) (prodArr (V m c main_v10) (V m c main_v13)) := by
  show (cfg0.win 3).cut (grid0.coords t) ((dats m 0 c).after 3 t) = _
  rw [after0_3]
  unfold outRe
  rw [View.canon_unit_zero hz]
  simp only [View.ld_unit_zero (S := S2128x800) hz, View.ld_unit_zero (S := S800x512) hz]
  obtain ⟨e0, e1, e2, e3, e4, e5, e6, e7, e8, e9⟩ := idx_facts t
  funext j
  show k0_pay2 (F := Ideal) (iblk m c 0 t) (iblk m c 1 t) j = prodArr (V m c main_v10) (V m c main_v13) (((cfg0.win 3).blk t).view.emb j)
  exact blockRe (iblk m c 0 t) (iblk m c 1 t) (V m c main_v10) (V m c main_v13) (t.val * 2128)
    (fun p n r hr => frames_blk m c t p n r hr) (fun n q => cos_blk m c t n q) j (((cfg0.win 3).blk t).view.emb j)
    (by show win0_3.index t (0 : Fin 2) * 2128 + 1 * (j 0).val = t.val * 2128 + (j 0).val; omega)
    (by show win0_3.index t (1 : Fin 2) * 512 + 1 * (j 1).val = (j 1).val; omega)

/-- An index of the array is in point `t`'s block iff each coordinate is in the block's range on its axis. -/
theorem mem_blkRe (t : Fin cfg0.N) (i : S19152x512.Idx) :
    i ∈ ((cfg0.win 3).blk t).view.set ↔ ∀ a : Fin 2, win0_3.index t a * S2128x512.size a ≤ (i a).val ∧ (i a).val < win0_3.index t a * S2128x512.size a + S2128x512.size a := by
  show i ∈ ((View.whole main_v17_0).slice (win0_3.rect t)).set ↔ _
  rw [View.set_slice_whole, Rect.mem_set_unit]
  exact Iff.rfl

/-- Every row lies in the block of the point `row / 2128`: nine blocks of 2128 rows are the 19152 rows. -/
theorem coverRe (i : S19152x512.Idx) : ∃ t : Fin cfg0.N, (cfg0.win 3).flush t = true ∧ i ∈ ((cfg0.win 3).blk t).view.set := by
  have hi0 : (i 0).val < 19152 := (i 0).isLt
  have hi1 : (i 1).val < 512 := (i 1).isLt
  have hN : (i 0).val / 2128 < cfg0.N := by show _ < grid0.N; rw [N_0]; omega
  obtain ⟨e0, e1, e2, e3, e4, e5, e6, e7, e8, e9⟩ := idx_facts ⟨(i 0).val / 2128, hN⟩
  refine ⟨⟨(i 0).val / 2128, hN⟩, flush0_3 _, ?_⟩
  rw [mem_blkRe]
  intro a
  match a with
  | ⟨0, _⟩ =>
    show win0_3.index ⟨(i 0).val / 2128, hN⟩ (0 : Fin 2) * 2128 ≤ (i 0).val ∧ (i 0).val < win0_3.index ⟨(i 0).val / 2128, hN⟩ (0 : Fin 2) * 2128 + 2128
    have hv : (⟨(i 0).val / 2128, hN⟩ : Fin cfg0.N).val = (i 0).val / 2128 := rfl
    omega
  | ⟨1, _⟩ =>
    show win0_3.index ⟨(i 0).val / 2128, hN⟩ (1 : Fin 2) * 512 ≤ (i 1).val ∧ (i 1).val < win0_3.index ⟨(i 0).val / 2128, hN⟩ (1 : Fin 2) * 512 + 512
    omega

/-- The array after the run: the product of the frames' array and the matrix's. -/
theorem finalRe (c : Dev nD) : (dats m 0 c).arrAt 3 cfg0.N = prodArr (V m c main_v10) (V m c main_v13) :=
  (dats m 0 c).arrAt_eq_of_cover 3 _ (fun t _ => flushedRe m c t) coverRe

/-! ## The imaginary part -/

/-- A block's stored value is the whole product read at the block's place: row `p` of the block is row `r0 + p` of the
    frames' array, the matrix is whole. -/
theorem blockIm (x : Vec Ideal S2128x800 .bf16) (mt : Vec Ideal S800x512 .bf16) (X : Vec Ideal S19152x800 .bf16) (M : Vec Ideal S800x512 .bf16)
    (r0 : Nat) (hx : ∀ (p : Fin 2128) (n : Fin 800) (r : Fin 19152), r.val = r0 + p.val → x (ix2 p n) = X (ix2 r n))
    (hm : ∀ (n : Fin 800) (q : Fin 512), mt (ix2 n q) = M (ix2 n q))
    (y : S2128x512.Idx) (i : S19152x512.Idx) (h0 : (i 0).val = r0 + (y 0).val) (h1 : (i 1).val = (y 1).val) :
    k0_pay3 (F := Ideal) x mt y = prodArr X M i := by
  obtain ⟨p, q, rfl⟩ : ∃ (p : Fin 2128) (q : Fin 512), y = ix2 p q := ⟨y 0, y 1, eq_ix2 y⟩
  rw [payIm_apply]
  unfold prodArr
  refine Finset.sum_congr rfl fun n _ => ?_
  rw [hx p n ⟨(i 0).val, (i 0).isLt⟩ h0, hm n q]
  exact congrArg (fun q' => X (ix2 ⟨(i 0).val, (i 0).isLt⟩ n) * M (ix2 n q')) (Fin.ext h1.symm)

/-- The matrix's block at any point is the whole matrix. -/
theorem sin_blk (c : Dev nD) (t : Fin cfg0.N) (n : Fin 800) (q : Fin 512) :
    iblk m c 2 t (ix2 n q) = V m c main_v16 (ix2 n q) := by
  obtain ⟨e0, e1, e2, e3, e4, e5, e6, e7, e8, e9⟩ := idx_facts t
  show V m c main_v16 (((cfg0.win 2).blk t).view.emb (ix2 n q)) = _
  refine congrArg (V m c main_v16) (funext fun a => Fin.ext ?_)
  match a with
  | ⟨0, _⟩ => show win0_2.index t (0 : Fin 2) * 800 + 1 * n.val = n.val; omega
  | ⟨1, _⟩ => show win0_2.index t (1 : Fin 2) * 512 + 1 * q.val = q.val; omega

/-- What point `t` writes back is block `t` of the product of the arrays as the region finds them. -/
theorem flushedIm (c : Dev nD) (t : Fin cfg0.N) :
    (dats m 0 c).flushed 4 t = ((cfg0.win 4).blk t).view.read (Elt Ideal) (prodArr (V m c main_v10) (V m c main_v16)) := by
  show (cfg0.win 4).cut (grid0.coords t) ((dats m 0 c).after 4 t) = _
  rw [after0_4]
  unfold outIm
  rw [View.canon_unit_zero hz]
  simp only [View.ld_unit_zero (S := S2128x800) hz, View.ld_unit_zero (S := S800x512) hz]
  obtain ⟨e0, e1, e2, e3, e4, e5, e6, e7, e8, e9⟩ := idx_facts t
  funext j
  show k0_pay3 (F := Ideal) (iblk m c 0 t) (iblk m c 2 t) j = prodArr (V m c main_v10) (V m c main_v16) (((cfg0.win 4).blk t).view.emb j)
  exact blockIm (iblk m c 0 t) (iblk m c 2 t) (V m c main_v10) (V m c main_v16) (t.val * 2128)
    (fun p n r hr => frames_blk m c t p n r hr) (fun n q => sin_blk m c t n q) j (((cfg0.win 4).blk t).view.emb j)
    (by show win0_4.index t (0 : Fin 2) * 2128 + 1 * (j 0).val = t.val * 2128 + (j 0).val; omega)
    (by show win0_4.index t (1 : Fin 2) * 512 + 1 * (j 1).val = (j 1).val; omega)

/-- An index of the array is in point `t`'s block iff each coordinate is in the block's range on its axis. -/
theorem mem_blkIm (t : Fin cfg0.N) (i : S19152x512.Idx) :
    i ∈ ((cfg0.win 4).blk t).view.set ↔ ∀ a : Fin 2, win0_4.index t a * S2128x512.size a ≤ (i a).val ∧ (i a).val < win0_4.index t a * S2128x512.size a + S2128x512.size a := by
  show i ∈ ((View.whole main_v17_1).slice (win0_4.rect t)).set ↔ _
  rw [View.set_slice_whole, Rect.mem_set_unit]
  exact Iff.rfl

/-- Every row lies in the block of the point `row / 2128`: nine blocks of 2128 rows are the 19152 rows. -/
theorem coverIm (i : S19152x512.Idx) : ∃ t : Fin cfg0.N, (cfg0.win 4).flush t = true ∧ i ∈ ((cfg0.win 4).blk t).view.set := by
  have hi0 : (i 0).val < 19152 := (i 0).isLt
  have hi1 : (i 1).val < 512 := (i 1).isLt
  have hN : (i 0).val / 2128 < cfg0.N := by show _ < grid0.N; rw [N_0]; omega
  obtain ⟨e0, e1, e2, e3, e4, e5, e6, e7, e8, e9⟩ := idx_facts ⟨(i 0).val / 2128, hN⟩
  refine ⟨⟨(i 0).val / 2128, hN⟩, flush0_4 _, ?_⟩
  rw [mem_blkIm]
  intro a
  match a with
  | ⟨0, _⟩ =>
    show win0_4.index ⟨(i 0).val / 2128, hN⟩ (0 : Fin 2) * 2128 ≤ (i 0).val ∧ (i 0).val < win0_4.index ⟨(i 0).val / 2128, hN⟩ (0 : Fin 2) * 2128 + 2128
    have hv : (⟨(i 0).val / 2128, hN⟩ : Fin cfg0.N).val = (i 0).val / 2128 := rfl
    omega
  | ⟨1, _⟩ =>
    show win0_4.index ⟨(i 0).val / 2128, hN⟩ (1 : Fin 2) * 512 ≤ (i 1).val ∧ (i 1).val < win0_4.index ⟨(i 0).val / 2128, hN⟩ (1 : Fin 2) * 512 + 512
    omega

/-- The array after the run: the product of the frames' array and the matrix's. -/
theorem finalIm (c : Dev nD) : (dats m 0 c).arrAt 4 cfg0.N = prodArr (V m c main_v10) (V m c main_v16) :=
  (dats m 0 c).arrAt_eq_of_cover 4 _ (fun t _ => flushedIm m c t) coverIm

end Cert.KernelIdeal.Arrays

end
-- ==== Proof.KIRun.lean ====
/-
  The idealized program's result is the specification of its arguments.

  After the region the seven host operations keep the first 401 columns of each product, split the 19152 rows back
  into 16 signal rows of 1197 frames, and lay the two parts side by side on a new last axis.  Row `1197 b + f`,
  column `k` of a product is the sum over the frame's 800 entries of the windowed entry `n` of frame `f` of row `b`
  times entry `(k, n)` of the DFT matrix: the specification's bin `k`.
-/
import proofs.«129863_j31473520345491_1_alg».proof.Proof.KIFrame
import proofs.«129863_j31473520345491_1_alg».proof.Proof.KIHost
import proofs.«129863_j31473520345491_1_alg».proof.Proof.KIArr
import proofs.«129863_j31473520345491_1_alg».proof.Proof.Spec
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Cert.KernelIdeal.Hand Cert.KernelIdeal.HostSide Cert.KernelIdeal.Arrays
open Idealize.ShloMosaic Idealize.ShloMosaic.TcCoe Idealize.SL.Sem Idealize.ShloMosaic.StableHlo Idealize.ShloMosaic.ValueIdx

/-- The later host operations, as one function of the two result arrays. -/
def tailOf {α : Type} (re im : S19152x512.Idx → α) : S16x1197x401x2.Idx → α :=
  concatenate S16x1197x401x2 3
    [⟨S16x1197x401x1, broadcastInDim S16x1197x401x1 ![0, 1, 2] bcast_S16x1197x401_S16x1197x401x1_0_1_2
        (shapeCast S16x1197x401 (extractStridedSlice S19152x401 ![0, 0] re slices_S19152x512_S19152x401_0_0) shapeCasts_S19152x401_S16x1197x401)⟩,
      ⟨S16x1197x401x1, broadcastInDim S16x1197x401x1 ![0, 1, 2] bcast_S16x1197x401_S16x1197x401x1_0_1_2
        (shapeCast S16x1197x401 (extractStridedSlice S19152x401 ![0, 0] im slices_S19152x512_S19152x401_0_0) shapeCasts_S19152x401_S16x1197x401)⟩]
    concatenates_S16x1197x401x1_S16x1197x401x1_S16x1197x401x2_d3

/-- One part of the result at `(b, f, k)`: the result array at row `1197 b + f`, column `k`. -/
theorem part_apply {α : Type} (a : S19152x512.Idx → α) (b : Fin 16) (f : Fin 1197) (k : Fin 401)
    (r : Fin 19152) (hr : r.val = b.val * 1197 + f.val) (q : Fin 512) (hq : q.val = k.val) :
    broadcastInDim S16x1197x401x1 ![0, 1, 2] bcast_S16x1197x401_S16x1197x401x1_0_1_2
        (shapeCast S16x1197x401 (extractStridedSlice S19152x401 ![0, 0] a slices_S19152x512_S19152x401_0_0) shapeCasts_S19152x401_S16x1197x401)
        (ix4 b f k (0 : Fin 1)) = a (ix2 r q) := by
  rw [broadcastInDim_apply _ bcast_S16x1197x401_S16x1197x401x1_0_1_2 _ (ix4 b f k (0 : Fin 1)) (ix3 b f k) (fun c => match c with
      | ⟨0, _⟩ => by show b.val = if (16 : Nat) = 1 then 0 else b.val; rw [if_neg (by decide)]
      | ⟨1, _⟩ => by show f.val = if (1197 : Nat) = 1 then 0 else f.val; rw [if_neg (by decide)]
      | ⟨2, _⟩ => by show k.val = if (401 : Nat) = 1 then 0 else k.val; rw [if_neg (by decide)]),
    shapeCast_apply _ shapeCasts_S19152x401_S16x1197x401 (ix3 b f k) (ix2 r k) (by
      rw [Shape.rowMajor_val_two, Shape.rowMajor_val_three]
      show r.val * 401 + k.val = (b.val * 1197 + f.val) * 401 + k.val
      rw [hr]),
    extractStridedSlice_apply ![0, 0] a slices_S19152x512_S19152x401_0_0 (ix2 r k) (ix2 r q) (fun c => match c with
      | ⟨0, _⟩ => by show r.val = 0 + r.val; omega
      | ⟨1, _⟩ => by show q.val = 0 + k.val; omega)]

theorem tailOf_re {α : Type} (re im : S19152x512.Idx → α) (b : Fin 16) (f : Fin 1197) (k : Fin 401)
    (r : Fin 19152) (hr : r.val = b.val * 1197 + f.val) (q : Fin 512) (hq : q.val = k.val) :
    tailOf re im (ix4 b f k (0 : Fin 2)) = re (ix2 r q) := by
  unfold tailOf
  rw [concatenate_pair_apply_left (s₁ := S16x1197x401x1) (s₂ := S16x1197x401x1) (3 : Fin 4) _ _ _ (ix4 b f k (0 : Fin 2)) rfl (ix4 b f k (0 : Fin 1))
      (fun c => match c with | ⟨0, _⟩ => rfl | ⟨1, _⟩ => rfl | ⟨2, _⟩ => rfl | ⟨3, _⟩ => rfl),
    part_apply re b f k r hr q hq]

theorem tailOf_im {α : Type} (re im : S19152x512.Idx → α) (b : Fin 16) (f : Fin 1197) (k : Fin 401)
    (r : Fin 19152) (hr : r.val = b.val * 1197 + f.val) (q : Fin 512) (hq : q.val = k.val) :
    tailOf re im (ix4 b f k (1 : Fin 2)) = im (ix2 r q) := by
  unfold tailOf
  rw [concatenate_pair_apply_right (s₁ := S16x1197x401x1) (s₂ := S16x1197x401x1) (3 : Fin 4) _ _ _ (ix4 b f k (1 : Fin 2)) rfl rfl (ix4 b f k (0 : Fin 1))
      (fun c hc => match c with | ⟨0, _⟩ => rfl | ⟨1, _⟩ => rfl | ⟨2, _⟩ => rfl | ⟨3, _⟩ => absurd rfl hc) rfl,
    part_apply im b f k r hr q hq]

theorem prodArr_apply (X : Vec Ideal S19152x800 .bf16) (M : Vec Ideal S800x512 .bf16) (r : Fin 19152) (q : Fin 512) :
    prodArr X M (ix2 r q) = ∑ n : Fin 800, X (ix2 r n) * M (ix2 n q) := rfl

/-- Row `1197 b + f`, column `k` of a product of the host's arrays is the specification's bin. -/
theorem prod_bin (x : FVec Ideal S16x240000 .f32) (w : FVec Ideal S800 .f32) (d : FVec Ideal S800x800 .f32) (b : Fin 16) (f : Fin 1197) (k : Fin 401)
    (r : Fin 19152) (hr : r.val = b.val * 1197 + f.val) (q : Fin 512) (hq : q.val = k.val) :
    prodArr (framesHost (F := Ideal) x w) (matHost (F := Ideal) d) (ix2 r q) = Spec.bin x w d b f (Spec.row k) := by
  rw [prodArr_apply]
  unfold Spec.bin
  refine Finset.sum_congr rfl fun n _ => ?_
  rw [framesHost_apply x w b f n r hr, matHost_apply d n q (Spec.row k) (by show k.val = q.val; omega)]

/-- The later host operations applied to the two products of the host's arrays: the specification. -/
theorem tail_spec (x : FVec Ideal S16x240000 .f32) (w : FVec Ideal S800 .f32) (dc ds : FVec Ideal S800x800 .f32) :
    tailOf (prodArr (framesHost (F := Ideal) x w) (matHost (F := Ideal) dc)) (prodArr (framesHost (F := Ideal) x w) (matHost (F := Ideal) ds))
      = Spec.G x w dc ds := by
  funext i
  obtain ⟨b, f, k, j, rfl⟩ : ∃ (b : Fin 16) (f : Fin 1197) (k : Fin 401) (j : Fin 2), i = ix4 b f k j := ⟨i 0, i 1, i 2, i 3, eq_ix4 i⟩
  have hb := b.isLt
  have hf := f.isLt
  have hk := k.isLt
  have hj : j = 0 ∨ j = 1 := by
    rcases j with ⟨_ | _ | j, hj⟩
    · exact Or.inl rfl
    · exact Or.inr rfl
    · omega
  rcases hj with rfl | rfl
  · rw [tailOf_re _ _ b f k ⟨b.val * 1197 + f.val, by omega⟩ rfl ⟨k.val, by omega⟩ rfl,
      prod_bin x w dc b f k ⟨b.val * 1197 + f.val, by omega⟩ rfl ⟨k.val, by omega⟩ rfl, Spec.G_re]
  · rw [tailOf_im _ _ b f k ⟨b.val * 1197 + f.val, by omega⟩ rfl ⟨k.val, by omega⟩ rfl,
      prod_bin x w ds b f k ⟨b.val * 1197 + f.val, by omega⟩ rfl ⟨k.val, by omega⟩ rfl, Spec.G_im]

variable (m : (ℓ : Loc nD τ sig) → Buf (Elt Ideal) ℓ) (ρ : Dev nD → PrngReg)

/-- What the later host operations find in the two result arrays. -/
theorem re_found (c : Dev nD) :
    Pipeline.withArrays spec0 c (V0 m c) (fun w => (dats m 0 c).arrAt w cfg0.N) (Proc.devRef .tc main_v17_0)
      = prodArr (V m c main_v10) (V m c main_v13) :=
  (Pipeline.withArrays_arr spec0 launch0.win.arr_inj c _ _ 3).trans (finalRe m c)
theorem im_found (c : Dev nD) :
    Pipeline.withArrays spec0 c (V0 m c) (fun w => (dats m 0 c).arrAt w cfg0.N) (Proc.devRef .tc main_v17_1)
      = prodArr (V m c main_v10) (V m c main_v16) :=
  (Pipeline.withArrays_arr spec0 launch0.win.arr_inj c _ _ 4).trans (finalIm m c)

/-- The result buffer after the later host operations. -/
theorem result_after (c : Dev nD) :
    Pipeline.afterTail₀ cfgs (dats m) 0 (V0 m) [hostOps1] c main_v24
      = tailOf (prodArr (V m c main_v10) (V m c main_v13)) (prodArr (V m c main_v10) (V m c main_v16)) := by
  unfold Pipeline.afterTail₀
  show StableHlo.after hostOps1 (Pipeline.withArrays spec0 c (V0 m c) fun w => (dats m 0 c).arrAt w cfg0.N) (Proc.devRef .tc main_v24) = _
  after_results
  rw [re_found, im_found]
  rfl

/-- It is the specification of the four arguments as launched. -/
theorem result_spec (c : Dev nD) :
    Pipeline.afterTail₀ cfgs (dats m) 0 (V0 m) [hostOps1] c main_v24
      = Spec.G (m ((c : Thread nD τ).loc main_arg0)) (m ((c : Thread nD τ).loc main_arg1)) (m ((c : Thread nD τ).loc main_arg2)) (m ((c : Thread nD τ).loc main_arg3)) := by
  rw [result_after, V_frames, V_cos, V_sin]
  exact tail_spec _ _ _ _

/-- THE RUN: every weakly fair execution terminates with the result at the specification of the arguments and the
    arguments as launched. -/
theorem run : θ_run defs (onTc (τ := τ) (main (F := Ideal))) ⟨m, fun _ => 0, ρ⟩ (fun r => ∀ c : Dev nD,
      r.2.mem ((c.tc : Thread nD τ).loc main_v24)
        = Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v24 (Pipeline.mem_restRefs_of main_v24 (by decide) (by decide))).trans (result_spec m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.KernelIdeal.Result

end
-- ==== Proof.RefValue.lean ====
/-
  The reference computes the specification.

  Its start indices are the words `200 f + n` (an iota times 200 plus an iota: no wrap at 32 bits, none negative, so the
  wrap-around of negative indices leaves them alone), each below the row's 240000 samples, so the gather reads sample
  `200 f + n` of row `b` unclamped; the gathered frames times the window, contracted with a DFT matrix over the
  frame's 800 entries, is the specification's bin; the first 401 bins of the two products are laid on a last axis.
-/
import proofs.«129863_j31473520345491_1_alg».proof.Proof.Gen.ReferenceIdeal.Read
import proofs.«129863_j31473520345491_1_alg».proof.Proof.Spec
import Idealize.ShloMosaic.Lib.StableHlo.Predicate
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The sum of the two index grids at `(f, n)` is the word of `200 f + n`. -/
theorem sum_word (f : Fin 1197) (n : Fin 800) :
    val_main_v8 (F := Ideal) (ix2 f n) = BitVec.ofNat 32 (200 * f.val + n.val) := by
  rw [val_main_v8_apply, val_main_v6_apply, val_main_v4_apply, val_main_v2_apply, val_main_v0_apply, val_main_v1_apply, val_main_c_apply,
    val_main_v7_apply, val_main_v5_apply, val_main_v3_apply]
  show IntOp.addi (IntOp.muli (BitVec.ofNat 32 f.val) 200#32) (BitVec.ofNat 32 n.val) = _
  unfold IntOp.addi IntOp.muli
  rw [show (200#32 : BitVec 32) = BitVec.ofNat 32 200 from rfl, ← BitVec.ofNat_mul, ← BitVec.ofNat_add]
  congr 1; omega

/-- It is not negative, so the start index is the same word. -/
theorem start_word (f : Fin 1197) (n : Fin 800) :
    val_main_v13 (F := Ideal) (ix2 f n) = BitVec.ofNat 32 (200 * f.val + n.val) := by
  have hf := f.isLt
  have hn := n.isLt
  rw [val_main_v13_apply, val_main_v10_apply, val_main_v9_apply, val_main_c_0_apply, sum_word]
  have h : IntOp.cmpi .slt (BitVec.ofNat 32 (200 * f.val + n.val)) 0#32 = 0#1 := by
    refine eq_zero_of_ne_one fun h1 => ?_
    have := (StableHlo.Predicate.slt_iff_toNat (a := BitVec.ofNat 32 (200 * f.val + n.val)) (b := 0#32)
      (by rw [BitVec.toNat_ofNat, Nat.mod_eq_of_lt (by omega)]; omega) (by decide)).mp h1
    exact absurd this (by simp)
  rw [h, select_zero]

/-- The gather reads sample `200 f + n` of row `b`. -/
theorem gather_apply (x0 : FVec Ideal S16x240000 .f32) (b : Fin 16) (f : Fin 1197) (n : Fin 800) :
    val_main_v15 (F := Ideal) x0 (ix3 b f n) = x0 (ix2 b (Spec.pos f n)) := by
  have hf := f.isLt
  have hn := n.isLt
  unfold val_main_v15 Host.gather
  congr 1
  funext a
  refine Fin.ext ?_
  match a with
  | ⟨0, _⟩ =>
    show gather_S16x240000_S1197x800x1_S16x1197x800_0_1_n_n_1_2_161.start (ix3 b f n) (val_main_v14 (F := Ideal)) 0 + gather_S16x240000_S1197x800x1_S16x1197x800_0_1_n_n_1_2_161.batchCoord (ix3 b f n) 0 + gather_S16x240000_S1197x800x1_S16x1197x800_0_1_n_n_1_2_161.offCoord (ix3 b f n) 0 = b.val
    rw [GatherDims.batchCoord_eq_zero _ _ _ List.not_mem_nil]
    unfold GatherDims.start
    rw [dif_neg (show ¬(0 : Fin S16x240000.rank) ∈ gather_S16x240000_S1197x800x1_S16x1197x800_0_1_n_n_1_2_161.startIndexMap by decide)]
    unfold GatherDims.offCoord
    rw [dif_pos (show (0 : Fin S16x240000.rank) ∈ gather_S16x240000_S1197x800x1_S16x1197x800_0_1_n_n_1_2_161.sKept by decide)]
    simp only [Nat.zero_add]
    have key : ∀ (a' : Fin S16x1197x800.rank), a' = 0 → ((ix3 b f n) a').val = b.val := fun a' ha' => by subst ha'; rfl
    exact key _ (by decide)
  | ⟨1, _⟩ =>
    show gather_S16x240000_S1197x800x1_S16x1197x800_0_1_n_n_1_2_161.start (ix3 b f n) (val_main_v14 (F := Ideal)) 1 + gather_S16x240000_S1197x800x1_S16x1197x800_0_1_n_n_1_2_161.batchCoord (ix3 b f n) 1 + gather_S16x240000_S1197x800x1_S16x1197x800_0_1_n_n_1_2_161.offCoord (ix3 b f n) 1 = 200 * f.val + n.val
    rw [GatherDims.batchCoord_eq_zero _ _ _ List.not_mem_nil,
      GatherDims.offCoord_eq_zero _ _ _ (show ¬(1 : Fin S16x240000.rank) ∈ gather_S16x240000_S1197x800x1_S16x1197x800_0_1_n_n_1_2_161.sKept by decide)]
    simp only [Nat.add_zero]
    unfold GatherDims.start
    rw [dif_pos (show (1 : Fin S16x240000.rank) ∈ gather_S16x240000_S1197x800x1_S16x1197x800_0_1_n_n_1_2_161.startIndexMap by decide)]
    have hsi : gather_S16x240000_S1197x800x1_S16x1197x800_0_1_n_n_1_2_161.siIdx (ix3 b f n) ⟨List.idxOf (1 : Fin S16x240000.rank) gather_S16x240000_S1197x800x1_S16x1197x800_0_1_n_n_1_2_161.startIndexMap,
        List.idxOf_lt_length_iff.2 (show (1 : Fin S16x240000.rank) ∈ gather_S16x240000_S1197x800x1_S16x1197x800_0_1_n_n_1_2_161.startIndexMap by decide)⟩ = ix3 f n (0 : Fin 1) := by
      funext c; refine Fin.ext ?_
      match c with
      | ⟨0, _⟩ => rfl
      | ⟨1, _⟩ => rfl
      | ⟨2, _⟩ => rfl
    rw [hsi, val_main_v14_apply,
      show idx_main_v14 (ix3 f n (0 : Fin 1)) = ix2 f n from funext fun c => Fin.ext (by match c with | ⟨0, _⟩ => rfl | ⟨1, _⟩ => rfl),
      start_word, StableHlo.Predicate.toInt_ofNat_small _ (by omega), Int.toNat_natCast]
    exact Nat.min_eq_left (by show 200 * f.val + n.val ≤ 240000 - 1; omega)

/-- The reference's windowed frame entry. -/
theorem windowed_apply (x0 : FVec Ideal S16x240000 .f32) (x1 : FVec Ideal S800 .f32) (b : Fin 16) (f : Fin 1197) (n : Fin 800) :
    val_main_v18 (F := Ideal) x0 x1 (ix3 b f n) = Spec.windowed x0 x1 b f n := by
  rw [val_main_v18_apply, val_main_v17_apply, val_main_v16_apply, gather_apply,
    show idx_main_v16 (idx_main_v17 (ix3 b f n)) = ix1 n from funext fun c => Fin.ext (by match c with | ⟨0, _⟩ => rfl)]
  rfl

/-- A product of the windowed frames with a DFT matrix, read at bin `k`. -/
theorem bin_re (x0 : FVec Ideal S16x240000 .f32) (x1 : FVec Ideal S800 .f32) (x2 : FVec Ideal S800x800 .f32) (b : Fin 16) (f : Fin 1197) (k : Fin 800) :
    val_main_v19 (F := Ideal) x0 x1 x2 (ix3 b f k) = Spec.bin x0 x1 x2 b f k := by
  rw [val_main_v19_apply]
  unfold Spec.bin
  refine Finset.sum_congr rfl fun n _ => ?_
  rw [show lidx_main_v19 (ix3 b f k) n = ix3 b f n from funext fun c => Fin.ext (by match c with | ⟨0, _⟩ => rfl | ⟨1, _⟩ => rfl | ⟨2, _⟩ => rfl),
    show ridx_main_v19 (ix3 b f k) n = ix2 k n from funext fun c => Fin.ext (by match c with | ⟨0, _⟩ => rfl | ⟨1, _⟩ => rfl),
    windowed_apply]

theorem bin_im (x0 : FVec Ideal S16x240000 .f32) (x1 : FVec Ideal S800 .f32) (x3 : FVec Ideal S800x800 .f32) (b : Fin 16) (f : Fin 1197) (k : Fin 800) :
    val_main_v20 (F := Ideal) x0 x1 x3 (ix3 b f k) = Spec.bin x0 x1 x3 b f k := by
  rw [val_main_v20_apply]
  unfold Spec.bin
  refine Finset.sum_congr rfl fun n _ => ?_
  rw [show lidx_main_v20 (ix3 b f k) n = ix3 b f n from funext fun c => Fin.ext (by match c with | ⟨0, _⟩ => rfl | ⟨1, _⟩ => rfl | ⟨2, _⟩ => rfl),
    show ridx_main_v20 (ix3 b f k) n = ix2 k n from funext fun c => Fin.ext (by match c with | ⟨0, _⟩ => rfl | ⟨1, _⟩ => rfl),
    windowed_apply]

/-- THE REFERENCE'S RESULT is the specification of the four arguments. -/
theorem result_eq (x0 : FVec Ideal S16x240000 .f32) (x1 : FVec Ideal S800 .f32) (x2 x3 : FVec Ideal S800x800 .f32) :
    val_main_v25 (F := Ideal) x0 x1 x2 x3 = Spec.G x0 x1 x2 x3 := by
  funext i
  obtain ⟨b, f, k, j, rfl⟩ : ∃ (b : Fin 16) (f : Fin 1197) (k : Fin 401) (j : Fin 2), i = ix4 b f k j := ⟨i 0, i 1, i 2, i 3, eq_ix4 i⟩
  unfold val_main_v25
  have hj : j = 0 ∨ j = 1 := by
    rcases j with ⟨_ | _ | j, hj⟩
    · exact Or.inl rfl
    · exact Or.inr rfl
    · omega
  rcases hj with rfl | rfl
  · rw [concatenate_pair_apply_left (s₁ := S16x1197x401x1) (s₂ := S16x1197x401x1) (3 : Fin 4) _ _ _ (ix4 b f k (0 : Fin 2)) rfl (ix4 b f k (0 : Fin 1))
        (fun a => match a with | ⟨0, _⟩ => rfl | ⟨1, _⟩ => rfl | ⟨2, _⟩ => rfl | ⟨3, _⟩ => rfl),
      val_main_v23_apply, val_main_v21_apply,
      show idx_main_v21 (idx_main_v23 (ix4 b f k (0 : Fin 1))) = ix3 b f (Spec.row k) from
        funext fun c => Fin.ext (by match c with | ⟨0, _⟩ => rfl | ⟨1, _⟩ => rfl | ⟨2, _⟩ => rfl),
      bin_re, Spec.G_re]
  · rw [concatenate_pair_apply_right (s₁ := S16x1197x401x1) (s₂ := S16x1197x401x1) (3 : Fin 4) _ _ _ (ix4 b f k (1 : Fin 2)) rfl rfl (ix4 b f k (0 : Fin 1))
        (fun a ha => match a with | ⟨0, _⟩ => rfl | ⟨1, _⟩ => rfl | ⟨2, _⟩ => rfl | ⟨3, _⟩ => absurd rfl ha) rfl,
      val_main_v24_apply, val_main_v22_apply,
      show idx_main_v22 (idx_main_v24 (ix4 b f k (0 : Fin 1))) = ix3 b f (Spec.row k) from
        funext fun c => Fin.ext (by match c with | ⟨0, _⟩ => rfl | ⟨1, _⟩ => rfl | ⟨2, _⟩ => rfl),
      bin_im, Spec.G_im]

end Cert.ReferenceIdeal.RefValue

end
-- ==== Proof.lean ====
/-
  The certificate of the framed dense DFT: a pipelined kernel against its plain reference.

  Both programs compute, for each of 16 signal rows, each of 1197 frames of 800 samples taken 200 samples apart, and
  each of the first 401 frequency bins, the sum over the frame's samples of sample times window entry times the DFT
  matrix's entry — once against the cosine matrix and once against the sine matrix, the two laid on a last axis
  (Proof/Spec.lean states that function).  The kernel's program cuts the frames by a reshape, four shifted slices and a
  concatenation, and multiplies blocks of 2128 frames by the transposed matrices on the matrix unit; the reference
  gathers the frames by computed indices and contracts on the host.  Over the extended reals a change of float format
  is the identity and a product into a zero accumulator is the plain sum, so the two results are one function of the
  arguments, term by term: no law beyond reading both sides at an index is used, and the precondition is never opened.

  The two kernel programs' frames come from one run of the region between its host operations (Proof/KIFrame.lean, and
  its copy for the word-level program); the reference's frame is its run with the result dropped; the idealization
  rewrote nothing, so what it preserves is trivially true; the value claim puts the kernel's run (Proof/KIRun.lean) beside
  the reference's (Proof/RefValue.lean) at the one specification term.
-/
import proofs.«129863_j31473520345491_1_alg».proof.Defs
import proofs.«129863_j31473520345491_1_alg».proof.Proof.Gen.Kernel
import proofs.«129863_j31473520345491_1_alg».proof.Proof.Gen.KernelIdeal
import proofs.«129863_j31473520345491_1_alg».proof.Proof.Gen.ReferenceIdeal
import proofs.«129863_j31473520345491_1_alg».proof.Proof.Gen.Pre_finite_inputs
import proofs.«129863_j31473520345491_1_alg».proof.Proof.Gen.ReferenceIdeal.Run
import proofs.«129863_j31473520345491_1_alg».proof.Proof.Gen.ReferenceIdeal.Read
import proofs.«129863_j31473520345491_1_alg».proof.Proof.Spec
import proofs.«129863_j31473520345491_1_alg».proof.Proof.KFrame
import proofs.«129863_j31473520345491_1_alg».proof.Proof.KIFrame
import proofs.«129863_j31473520345491_1_alg».proof.Proof.KIRun
import proofs.«129863_j31473520345491_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its four arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification of those arguments in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq _ _ _ _).trans ?_
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
